-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x64x2048 : Shape := ⟨4, ![4, 64, 64, 2048]⟩
abbrev S_ : Shape := ⟨0, ![]⟩

class Facts : Prop where
  bcast_S_S4x64x64x2048 : S_.BroadcastsInDim S4x64x64x2048 (![] : Fin 0 → Fin S4x64x64x2048.rank)
  reducesTo_S4x64x64x2048_S_d0_1_2_3 : S4x64x64x2048.ReducesTo [0, 1, 2, 3] S_
  h_S_ : 0 < S_.numel

variable [Facts]

def fn {F : FTy → Type} [FloatOps F] (main_arg0 : FVec F S4x64x64x2048 .f32) (main_arg1 : FVec F S4x64x64x2048 .f32) (main_arg2 : FVec F S4x64x64x2048 .f32) : IVec S_ 1 :=
  let main_v0 : FVec F S4x64x64x2048 .f32 := Host.absf main_arg0
  let main_cst : FVec F S_ .f32 := constant S_ .f32 0x7F800000#32
  let main_v1 : FVec F S4x64x64x2048 .f32 := broadcastInDim S4x64x64x2048 ![] bcast_S_S4x64x64x2048 main_cst
  let main_v2 : IVec S4x64x64x2048 1 := cmpf .olt main_v0 main_v1
  let main_c : IVec S_ 1 := constantI S_ 1 1#1
  let main_v3 : IVec S_ 1 := (fun x v => Host.reduce IntOp.andi x v reducesTo_S4x64x64x2048_S_d0_1_2_3 h_S_) main_v2 main_c
  let main_v4 : FVec F S4x64x64x2048 .f32 := Host.absf main_arg1
  let main_cst_0 : FVec F S_ .f32 := constant S_ .f32 0x7F800000#32
  let main_v5 : FVec F S4x64x64x2048 .f32 := broadcastInDim S4x64x64x2048 ![] bcast_S_S4x64x64x2048 main_cst_0
  let main_v6 : IVec S4x64x64x2048 1 := cmpf .olt main_v4 main_v5
  let main_c_1 : IVec S_ 1 := constantI S_ 1 1#1
  let main_v7 : IVec S_ 1 := (fun x v => Host.reduce IntOp.andi x v reducesTo_S4x64x64x2048_S_d0_1_2_3 h_S_) main_v6 main_c_1
  let main_v8 : IVec S_ 1 := andi main_v3 main_v7
  let main_v9 : FVec F S4x64x64x2048 .f32 := Host.absf main_arg2
  let main_cst_2 : FVec F S_ .f32 := constant S_ .f32 0x7F800000#32
  let main_v10 : FVec F S4x64x64x2048 .f32 := broadcastInDim S4x64x64x2048 ![] bcast_S_S4x64x64x2048 main_cst_2
  let main_v11 : IVec S4x64x64x2048 1 := cmpf .olt main_v9 main_v10
  let main_c_3 : IVec S_ 1 := constantI S_ 1 1#1
  let main_v12 : IVec S_ 1 := (fun x v => Host.reduce IntOp.andi x v reducesTo_S4x64x64x2048_S_d0_1_2_3 h_S_) main_v11 main_c_3
  let main_v13 : IVec S_ 1 := andi main_v8 main_v12
  main_v13
-- ==== Kernel.lean ====
abbrev S4x64x64x2048 : Shape := ⟨4, ![4, 64, 64, 2048]⟩
abbrev S1x64x64x128 : Shape := ⟨4, ![1, 64, 64, 128]⟩
abbrev S64x64x128 : Shape := ⟨3, ![64, 64, 128]⟩
abbrev S128x64x64 : Shape := ⟨3, ![128, 64, 64]⟩
abbrev S128x64x16 : Shape := ⟨3, ![128, 64, 16]⟩
abbrev S128x64 : Shape := ⟨2, ![128, 64]⟩
abbrev S128x64x1 : Shape := ⟨3, ![128, 64, 1]⟩
abbrev S4x4096x2048 : Shape := ⟨3, ![4, 4096, 2048]⟩
abbrev S4x1x64x64x2048 : Shape := ⟨5, ![4, 1, 64, 64, 2048]⟩

abbrev nBuf : Space → Nat
  | .hbm => 7
  | .vmem => 10
  | .smem => 0
  | _ => 0

abbrev bufTy : (tb : Table) → Fin (tcTables nBuf tb) → BufTy
  | .hbm, ⟨0, _⟩ => ⟨S4x64x64x2048, .f32⟩
  | .hbm, ⟨1, _⟩ => ⟨S4x64x64x2048, .f32⟩
  | .hbm, ⟨2, _⟩ => ⟨S4x64x64x2048, .f32⟩
  | .hbm, ⟨3, _⟩ => ⟨S4x64x64x2048, .f32⟩
  | .hbm, ⟨4, _⟩ => ⟨S4x64x64x2048, .f32⟩
  | .hbm, ⟨5, _⟩ => ⟨S4x4096x2048, .f32⟩
  | .hbm, ⟨6, _⟩ => ⟨S4x1x64x64x2048, .f32⟩
  | .local _ .vmem, ⟨0, _⟩ => ⟨S1x64x64x128, .f32⟩
  | .local _ .vmem, ⟨1, _⟩ => ⟨S1x64x64x128, .f32⟩
  | .local _ .vmem, ⟨2, _⟩ => ⟨S1x64x64x128, .f32⟩
  | .local _ .vmem, ⟨3, _⟩ => ⟨S1x64x64x128, .f32⟩
  | .local _ .vmem, ⟨4, _⟩ => ⟨S1x64x64x128, .f32⟩
  | .local _ .vmem, ⟨5, _⟩ => ⟨S1x64x64x128, .f32⟩
  | .local _ .vmem, ⟨6, _⟩ => ⟨S1x64x64x128, .f32⟩
  | .local _ .vmem, ⟨7, _⟩ => ⟨S1x64x64x128, .f32⟩
  | .local _ .vmem, ⟨8, _⟩ => ⟨S1x64x64x128, .f32⟩
  | .local _ .vmem, ⟨9, _⟩ => ⟨S1x64x64x128, .f32⟩
  | _, _ => ⟨S4x64x64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1x64x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S1x64x64x128_S1x64x64x128_0_0_0_0 : ∀ a, (![0, 0, 0, 0] : Fin 4 → Nat) a + S1x64x64x128.size a ≤ S1x64x64x128.size a
  h_S1x64x64x128 : 0 < S1x64x64x128.numel
  shapeCasts_S1x64x64x128_S64x64x128 : S1x64x64x128.ShapeCasts S64x64x128
  transposes_S64x64x128_p2_0_1_S128x64x64 : S64x64x128.Transposes [2, 0, 1] S128x64x64
  slices_S128x64x64_o0_0_0_S128x64x16 : S128x64x64.Slices ![0, 0, 0] S128x64x16
  bitsLt_bf16_f32 : FTy.bits .bf16 < FTy.bits .f32
  reduces_S128x64x64_S128x64 : S128x64x64.Reduces [2] S128x64
  shapeCasts_S128x64_S128x64x1 : S128x64.ShapeCasts S128x64x1
  broadcasts_S128x64x1_S128x64x64 : S128x64x1.Broadcasts S128x64x64
  slices_S128x64x64_o0_0_16_S128x64x16 : S128x64x64.Slices ![0, 0, 16] S128x64x16
  slices_S128x64x64_o0_0_32_S128x64x16 : S128x64x64.Slices ![0, 0, 32] S128x64x16
  slices_S128x64x64_o0_0_48_S128x64x16 : S128x64x64.Slices ![0, 0, 48] S128x64x16
  concatenates_S128x64x16_S128x64x16_S128x64x16_S128x64x16_S128x64x64_d2 : Shape.Concatenates [S128x64x16, S128x64x16, S128x64x16, S128x64x16] S128x64x64 2
  transposes_S128x64x64_p1_2_0_S64x64x128 : S128x64x64.Transposes [1, 2, 0] S64x64x128
  shapeCasts_S64x64x128_S1x64x64x128 : S64x64x128.ShapeCasts S1x64x64x128
  shapeCasts_S4x64x64x2048_S4x4096x2048 : S4x64x64x2048.ShapeCasts S4x4096x2048
  shapeCasts_S4x64x64x2048_S4x1x64x64x2048 : S4x64x64x2048.ShapeCasts S4x1x64x64x2048
  dot_S128x64x16_S128x64x16_S128x64x64_2_2_1_1_0_0_wf : DotDims.WF S128x64x16 S128x64x16 S128x64x64 [2] [2] [1] [1] [0] [0]
  dot_S128x64x64_S128x64x16_S128x64x16_2_1_1_2_0_0_wf : DotDims.WF S128x64x64 S128x64x16 S128x64x16 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x64x128.size a ≤ S4x64x64x2048.size a
  hwx0_0 : ∀ i : grid0.Coords, EltTy.bits .f32 = 32 ∨ (Rect.block (s := S4x64x64x2048) S1x64x64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x64x128.size a ≤ S4x64x64x2048.size a
  hwx0_1 : ∀ i : grid0.Coords, EltTy.bits .f32 = 32 ∨ (Rect.block (s := S4x64x64x2048) S1x64x64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x64x128.size a ≤ S4x64x64x2048.size a
  hwx0_2 : ∀ i : grid0.Coords, EltTy.bits .f32 = 32 ∨ (Rect.block (s := S4x64x64x2048) S1x64x64x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x64x128.size a ≤ S4x64x64x2048.size a
  hwx0_3 : ∀ i : grid0.Coords, EltTy.bits .f32 = 32 ∨ (Rect.block (s := S4x64x64x2048) S1x64x64x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x64x128.size a ≤ S4x64x64x2048.size a
  hwx0_4 : ∀ i : grid0.Coords, EltTy.bits .f32 = 32 ∨ (Rect.block (s := S4x64x64x2048) S1x64x64x128.size (cc0_transform_4 i) (hinb0_4 i)).WholeWords (EltTy.packing .f32)

variable [Facts₀]

def dot_S128x64x16_S128x64x16_S128x64x64_2_2_1_1_0_0 : DotDims S128x64x16 S128x64x16 S128x64x64 where
  lhsContracting := [2]
  rhsContracting := [2]
  lhsNonContracting := [1]
  rhsNonContracting := [1]
  lhsBatch := [0]
  rhsBatch := [0]
  wf := dot_S128x64x16_S128x64x16_S128x64x64_2_2_1_1_0_0_wf
def dot_S128x64x64_S128x64x16_S128x64x16_2_1_1_2_0_0 : DotDims S128x64x64 S128x64x16 S128x64x16 where
  lhsContracting := [2]
  rhsContracting := [1]
  lhsNonContracting := [1]
  rhsNonContracting := [2]
  lhsBatch := [0]
  rhsBatch := [0]
  wf := dot_S128x64x64_S128x64x16_S128x64x16_2_1_1_2_0_0_wf

abbrev win0_0 : Pipeline.Window sig grid0 :=
  Pipeline.Window.ofSpec (Memref.whole main_arg0) S1x64x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x64x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x64x64x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x64x64x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x64x64x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x64x64x2048 : Shape := ⟨4, ![4, 64, 64, 2048]⟩
abbrev S4x64x4x16x2048 : Shape := ⟨5, ![4, 64, 4, 16, 2048]⟩
abbrev S4x4x2048x64x16 : Shape := ⟨5, ![4, 4, 2048, 64, 16]⟩
abbrev S4x4x2048x16x64 : Shape := ⟨5, ![4, 4, 2048, 16, 64]⟩
abbrev S4x4x2048x64x64 : Shape := ⟨5, ![4, 4, 2048, 64, 64]⟩
abbrev S_ : Shape := ⟨0, ![]⟩
abbrev S4x4x2048x64 : Shape := ⟨4, ![4, 4, 2048, 64]⟩
abbrev S4x4x2048x64x1 : Shape := ⟨5, ![4, 4, 2048, 64, 1]⟩
abbrev S4x4x64x64x2048 : Shape := ⟨5, ![4, 4, 64, 64, 2048]⟩
abbrev S4x4096x2048 : Shape := ⟨3, ![4, 4096, 2048]⟩
abbrev S4x1x64x64x2048 : Shape := ⟨5, ![4, 1, 64, 64, 2048]⟩

abbrev nBuf : Space → Nat
  | .hbm => 37
  | .vmem => 0
  | .smem => 0
  | _ => 0

abbrev bufTy : (tb : Table) → Fin (tcTables nBuf tb) → BufTy
  | .hbm, ⟨0, _⟩ => ⟨S4x64x64x2048, .f32⟩
  | .hbm, ⟨1, _⟩ => ⟨S4x64x64x2048, .f32⟩
  | .hbm, ⟨2, _⟩ => ⟨S4x64x64x2048, .f32⟩
  | .hbm, ⟨3, _⟩ => ⟨S4x64x4x16x2048, .f32⟩
  | .hbm, ⟨4, _⟩ => ⟨S4x4x2048x64x16, .f32⟩
  | .hbm, ⟨5, _⟩ => ⟨S4x64x4x16x2048, .f32⟩
  | .hbm, ⟨6, _⟩ => ⟨S4x4x2048x16x64, .f32⟩
  | .hbm, ⟨7, _⟩ => ⟨S4x64x4x16x2048, .f32⟩
  | .hbm, ⟨8, _⟩ => ⟨S4x4x2048x64x16, .f32⟩
  | .hbm, ⟨9, _⟩ => ⟨S4x4x2048x64x64, .f32⟩
  | .hbm, ⟨10, _⟩ => ⟨S_, .f32⟩
  | .hbm, ⟨11, _⟩ => ⟨S4x4x2048x64x64, .f32⟩
  | .hbm, ⟨12, _⟩ => ⟨S4x4x2048x64x64, .f32⟩
  | .hbm, ⟨13, _⟩ => ⟨S_, .f32⟩
  | .hbm, ⟨14, _⟩ => ⟨S4x4x2048x64, .f32⟩
  | .hbm, ⟨15, _⟩ => ⟨S_, .f32⟩
  | .hbm, ⟨16, _⟩ => ⟨S4x4x2048x64, .f32⟩
  | .hbm, ⟨17, _⟩ => ⟨S4x4x2048x64, .f32⟩
  | .hbm, ⟨18, _⟩ => ⟨S4x4x2048x64x1, .f32⟩
  | .hbm, ⟨19, _⟩ => ⟨S4x4x2048x64x64, .f32⟩
  | .hbm, ⟨20, _⟩ => ⟨S4x4x2048x64x64, .f32⟩
  | .hbm, ⟨21, _⟩ => ⟨S4x4x2048x64x64, .f32⟩
  | .hbm, ⟨22, _⟩ => ⟨S_, .f32⟩
  | .hbm, ⟨23, _⟩ => ⟨S4x4x2048x64, .f32⟩
  | .hbm, ⟨24, _⟩ => ⟨S4x4x2048x64x1, .f32⟩
  | .hbm, ⟨25, _⟩ => ⟨S4x4x2048x64x64, .f32⟩
  | .hbm, ⟨26, _⟩ => ⟨S4x4x2048x64x64, .f32⟩
  | .hbm, ⟨27, _⟩ => ⟨S4x4x2048x64x16, .f32⟩
  | .hbm, ⟨28, _⟩ => ⟨S4x4x64x64x2048, .f32⟩
  | .hbm, ⟨29, _⟩ => ⟨S_, .f32⟩
  | .hbm, ⟨30, _⟩ => ⟨S4x64x64x2048, .f32⟩
  | .hbm, ⟨31, _⟩ => ⟨S_, .f32⟩
  | .hbm, ⟨32, _⟩ => ⟨S4x64x64x2048, .f32⟩
  | .hbm, ⟨33, _⟩ => ⟨S4x64x64x2048, .f32⟩
  | .hbm, ⟨34, _⟩ => ⟨S4x64x4x16x2048, .f32⟩
  | .hbm, ⟨35, _⟩ => ⟨S4x4096x2048, .f32⟩
  | .hbm, ⟨36, _⟩ => ⟨S4x1x64x64x2048, .f32⟩
  | _, _ => ⟨S4x64x64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]

class Facts₀ : Prop where
  shapeCasts_S4x64x64x2048_S4x64x4x16x2048 : S4x64x64x2048.ShapeCasts S4x64x4x16x2048
  transposes_S4x64x4x16x2048_S4x4x2048x64x16_0_2_4_1_3 : S4x64x4x16x2048.Transposes [0, 2, 4, 1, 3] S4x4x2048x64x16
  transposes_S4x64x4x16x2048_S4x4x2048x16x64_0_2_4_3_1 : S4x64x4x16x2048.Transposes [0, 2, 4, 3, 1] S4x4x2048x16x64
  bcast_S_S4x4x2048x64x64 : S_.BroadcastsInDim S4x4x2048x64x64 (![] : Fin 0 → Fin S4x4x2048x64x64.rank)
  reducesTo_S4x4x2048x64x64_S4x4x2048x64_d4 : S4x4x2048x64x64.ReducesTo [4] S4x4x2048x64
  h_S_ : 0 < S_.numel
  bcast_S_S4x4x2048x64 : S_.BroadcastsInDim S4x4x2048x64 (![] : Fin 0 → Fin S4x4x2048x64.rank)
  bcast_S4x4x2048x64_S4x4x2048x64x1_0_1_2_3 : S4x4x2048x64.BroadcastsInDim S4x4x2048x64x1 (![0, 1, 2, 3] : Fin 4 → Fin S4x4x2048x64x1.rank)
  bcast_S4x4x2048x64x1_S4x4x2048x64x64_0_1_2_3_4 : S4x4x2048x64x1.BroadcastsInDim S4x4x2048x64x64 (![0, 1, 2, 3, 4] : Fin 5 → Fin S4x4x2048x64x64.rank)
  transposes_S4x4x2048x64x64_S4x4x64x64x2048_0_1_3_4_2 : S4x4x2048x64x64.Transposes [0, 1, 3, 4, 2] S4x4x64x64x2048
  reducesTo_S4x4x64x64x2048_S4x64x64x2048_d1 : S4x4x64x64x2048.ReducesTo [1] S4x64x64x2048
  bcast_S_S4x64x64x2048 : S_.BroadcastsInDim S4x64x64x2048 (![] : Fin 0 → Fin S4x64x64x2048.rank)
  transposes_S4x4x2048x64x16_S4x64x4x16x2048_0_3_1_4_2 : S4x4x2048x64x16.Transposes [0, 3, 1, 4, 2] S4x64x4x16x2048
  shapeCasts_S4x64x4x16x2048_S4x4096x2048 : S4x64x4x16x2048.ShapeCasts S4x4096x2048
  shapeCasts_S4x64x64x2048_S4x1x64x64x2048 : S4x64x64x2048.ShapeCasts S4x1x64x64x2048
  dot_S4x4x2048x64x16_S4x4x2048x16x64_S4x4x2048x64x64_4_3_3_4_012_012_wf : DotDims.WF S4x4x2048x64x16 S4x4x2048x16x64 S4x4x2048x64x64 [4] [3] [3] [4] [0, 1, 2] [0, 1, 2]
  dot_S4x4x2048x64x64_S4x4x2048x64x16_S4x4x2048x64x16_4_3_3_4_012_012_wf : DotDims.WF S4x4x2048x64x64 S4x4x2048x64x16 S4x4x2048x64x16 [4] [3] [3] [4] [0, 1, 2] [0, 1, 2]

variable [Facts₀]

def dot_S4x4x2048x64x16_S4x4x2048x16x64_S4x4x2048x64x64_4_3_3_4_012_012 : DotDims S4x4x2048x64x16 S4x4x2048x16x64 S4x4x2048x64x64 where
  lhsContracting := [4]
  rhsContracting := [3]
  lhsNonContracting := [3]
  rhsNonContracting := [4]
  lhsBatch := [0, 1, 2]
  rhsBatch := [0, 1, 2]
  wf := dot_S4x4x2048x64x16_S4x4x2048x16x64_S4x4x2048x64x64_4_3_3_4_012_012_wf
def dot_S4x4x2048x64x64_S4x4x2048x64x16_S4x4x2048x64x16_4_3_3_4_012_012 : DotDims S4x4x2048x64x64 S4x4x2048x64x16 S4x4x2048x64x16 where
  lhsContracting := [4]
  rhsContracting := [3]
  lhsNonContracting := [3]
  rhsNonContracting := [4]
  lhsBatch := [0, 1, 2]
  rhsBatch := [0, 1, 2]
  wf := dot_S4x4x2048x64x64_S4x4x2048x64x16_S4x4x2048x64x16_4_3_3_4_012_012_wf

class Facts : Prop extends Facts₀ where

variable [Facts]
-- ==== Proof.Spec.lean ====
/-
  The mathematics both programs compute, stated once over the three argument arrays alone.

  The arrays q, k, v are indexed (b, g, h, T): batch, group, hidden channel, time.  The 64 hidden channels
  split into 4 heads of 16 channels: channel `16·hd + d`.  At a fixed batch `b` and time `T` each array is a
  64 × 64 SLICE (group, channel), and everything below is a function of the three slices; attention runs over
  the GROUPS axis, head by head:

    score   (gq, gk)  = (Σ_d q(gq, 16·hd+d) · k(gk, 16·hd+d)) · ¼
    attn    (gq, gk)  = exp(score(gq,gk) − M(gq)) / Σ_gk' exp(score(gq,gk') − M(gq)),  M(gq) = max(−∞, max_gk score(gq,gk))
    xout    (gq, d)   = Σ_gk attn(gq, gk) · v(gk, 16·hd+d)
    amean   (gq, gk)  = the four heads' attn summed from zero, times ¼

  The float literals stay as the bit patterns the programs spell; only where the two programs spell the mean
  differently (a product with ¼ against a quotient by 4) are their values used.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-- An argument array at the ideal values: (batch, group, channel, time) ↦ an extended real. -/
abbrev Arr : Type := (⟨4, ![4, 64, 64, 2048]⟩ : Shape).Idx → EReal

/-- One array at a fixed batch and time: (group, channel) ↦ an extended real. -/
abbrev Slice : Type := Fin 64 → Fin 64 → EReal

/-- The slice of an array at batch `b` and time `T`. -/
def sliceAt (x : Arr) (b : Fin 4) (T : Fin 2048) : Slice := fun g h => x (ix4 b g h T)

/-- Channel `16·hd + d` of head `hd`. -/
def chan (hd : Fin 4) (d : Fin 16) : Fin 64 := ⟨hd.val * 16 + d.val, by have := hd.isLt; have := d.isLt; omega⟩

theorem chan_val (hd : Fin 4) (d : Fin 16) : (chan hd d).val = hd.val * 16 + d.val := rfl

/-- The head a channel belongs to, and its place inside the head. -/
def headOf (h : Fin 64) : Fin 4 := ⟨h.val / 16, by have := h.isLt; omega⟩
def inHead (h : Fin 64) : Fin 16 := ⟨h.val % 16, by omega⟩

theorem chan_headOf_inHead (h : Fin 64) : chan (headOf h) (inHead h) = h :=
  Fin.ext (by show h.val / 16 * 16 + h.val % 16 = h.val; omega)

/-- The scale `16^(-1/2) = 0.25`, as both programs spell it. -/
abbrev quarter : EReal := Ideal.ofBits .f32 0x3E800000#32
/-- `-∞`, the row maximum's starting value. -/
abbrev negInf : EReal := Ideal.ofBits .f32 0xFF800000#32
/-- `+0.0`, a sum's starting value. -/
abbrev zero32 : EReal := Ideal.ofBits .f32 0x00000000#32
/-- `4.0`, the number of heads as the reference's mean divides by it. -/
abbrev four32 : EReal := Ideal.ofBits .f32 0x40800000#32

theorem zero32_eq : zero32 = 0 := Ideal.ofBits_zero_f32

theorem quarter_eq : quarter = (((1 / 4 : ℝ)) : EReal) := by
  simp [Ideal.ofBits, Ideal.ieee, -EReal.coe_mul]; norm_num

theorem four32_eq : four32 = ((4 : ℝ) : EReal) := by
  simp [Ideal.ofBits, Ideal.ieee, -EReal.coe_mul]; norm_num

/-- A row's maximum as `jax.nn.softmax` lowers it: the fold of `max` from −∞, and once more against −∞. -/
def rowMax (r : Fin 64 → EReal) : EReal := max negInf ((Finset.univ : Finset (Fin 64)).fold max negInf r)

/-- A row's softmax over 64 entries: subtract the row maximum, exponentiate, divide by the row's sum. -/
def softmaxRow (r : Fin 64 → EReal) (j : Fin 64) : EReal :=
  Ideal.div (Ideal.exp (r j - rowMax r)) (∑ j' : Fin 64, Ideal.exp (r j' - rowMax r))

/-- The scaled score of query group `gq` against key group `gk` in head `hd`. -/
def score (qs ks : Slice) (hd : Fin 4) (gq gk : Fin 64) : EReal :=
  (∑ d : Fin 16, qs gq (chan hd d) * ks gk (chan hd d)) * quarter

/-- The attention weights of head `hd`. -/
def attn (qs ks : Slice) (hd : Fin 4) (gq gk : Fin 64) : EReal := softmaxRow (score qs ks hd gq) gk

/-- The attended values of head `hd` at channel `d` of the head. -/
def xout (qs ks vs : Slice) (hd : Fin 4) (gq : Fin 64) (d : Fin 16) : EReal :=
  ∑ gk : Fin 64, attn qs ks hd gq gk * vs gk (chan hd d)

/-- The mean of the four heads' attention weights, summed head by head from zero and scaled by ¼. -/
def amean (qs ks : Slice) (gq gk : Fin 64) : EReal :=
  ((((zero32 + attn qs ks 0 gq gk) + attn qs ks 1 gq gk) + attn qs ks 2 gq gk) + attn qs ks 3 gq gk) * quarter

/-- The one algebraic law between the two programs: a sum of four terms from zero divided by `4` is the same
    sum (taken left to right from zero) times `¼` — on every extended real, since dividing by a nonzero real
    IS multiplying by its reciprocal. -/
theorem mean_div_eq_mul (a : Fin 4 → EReal) :
    Ideal.div (zero32 + ∑ hd : Fin 4, a hd) four32 = ((((zero32 + a 0) + a 1) + a 2) + a 3) * quarter := by
  rw [four32_eq, Ideal.div_coe (by norm_num : (4 : ℝ) ≠ 0), quarter_eq, Fin.sum_univ_four]
  simp only [add_assoc]

/-- The x result on the array the kernel's region writes: (batch, group, channel, time). -/
def X4 (q k v : Arr) : Arr := fun i =>
  xout (sliceAt q (i 0) (i 3)) (sliceAt k (i 0) (i 3)) (sliceAt v (i 0) (i 3)) (headOf (i 2)) (i 1) (inHead (i 2))

/-- The mean-attention result on (batch, query group, key group, time). -/
def A4 (q k : Arr) : Arr := fun i => amean (sliceAt q (i 0) (i 3)) (sliceAt k (i 0) (i 3)) (i 1) (i 2)

/-- The first result as both programs return it, (batch, 64·group + channel, time). -/
def Gx (q k v : Arr) : (⟨3, ![4, 4096, 2048]⟩ : Shape).Idx → EReal := fun i =>
  X4 q k v (ix4 (i 0) ⟨(i 1).val / 64, by have h : (i 1).val < 4096 := (i 1).isLt; omega⟩ ⟨(i 1).val % 64, by omega⟩ (i 2))

/-- The second result as both programs return it, (batch, 1, query group, key group, time). -/
def Ga (q k : Arr) : (⟨5, ![4, 1, 64, 64, 2048]⟩ : Shape).Idx → EReal := fun i =>
  A4 q k (ix4 (i 0) (i 2) (i 3) (i 4))

end Cert.Attn

end
-- ==== Proof.KernelBody.lean ====
/-
  The kernel's body at one index of each output block.

  The body loads the three blocks (1, group, channel, local time), moves local time to the front, and per head
  `hd` (channels 16·hd … 16·hd+15) forms the scores by a matrix product over the head's channels, scales them by ¼,
  takes the softmax of each row over the key groups, adds the weights into a running sum, and multiplies the weights
  into the head's values; the four heads' outputs are laid side by side along the channel axis, the weights' sum is
  scaled by ¼, and both are moved back to (group, ·, local time).  Read at one index, each step is the
  specification's formula of the three blocks' slices at that local time.
-/
import proofs.«128201_j31353261260858_1_alg».proof.Proof.Gen.KernelIdeal.Frame
import proofs.«128201_j31353261260858_1_alg».proof.Proof.Spec
import Idealize.ShloMosaic.Lib.Pipeline.Value
import Idealize.ShloMosaic.Lib.ValueIdx
import Idealize.ShloMosaic.PureOps.Ideal.Laws

noncomputable section

namespace Cert.Attn.Body

open Idealize.ShloMosaic Idealize.ShloMosaic.ValueIdx Cert.KernelIdeal Cert.KernelIdeal.Gen Cert.Attn

/-- A loaded block (1, group, channel, local time) at one local time: a slice. -/
def blockSlice (x : Vec Ideal S1x64x64x128 .f32) (tl : Fin 128) : Slice := fun g h => x (ix4 (0 : Fin 1) g h tl)

/-! ## Local time moved to the front -/

/-- A block with its unit axis dropped and local time moved to the front, at (local time, group, channel). -/
theorem timeFirst_apply (x : Vec Ideal S1x64x64x128 .f32) (tl : Fin 128) (g h : Fin 64) :
    transpose S128x64x64 [2, 0, 1] (shapeCast S64x64x128 x shapeCasts_S1x64x64x128_S64x64x128) transposes_S64x64x128_p2_0_1_S128x64x64 (ix3 tl g h)
      = x (ix4 (0 : Fin 1) g h tl) := by
  refine (transpose_apply [2, 0, 1] _ transposes_S64x64x128_p2_0_1_S128x64x64 (ix3 tl g h) (ix3 g h tl) (fun b => by
    match b with
    | ⟨0, _⟩ => rfl
    | ⟨1, _⟩ => rfl
    | ⟨2, _⟩ => rfl)).trans ?_
  refine shapeCast_apply x shapeCasts_S1x64x64x128_S64x64x128 (ix3 g h tl) (ix4 (0 : Fin 1) g h tl) ?_
  rw [Shape.rowMajor_val_four, Shape.rowMajor_val_three]
  show ((0 * 64 + g.val) * 64 + h.val) * 128 + tl.val = (g.val * 64 + h.val) * 128 + tl.val
  omega

/-! ## A row's softmax as the body computes it -/

/-- The softmax of the scaled scores along the last axis, operation by operation as the body has it. -/
def ksm {F : FTy → Type} [FloatOps F] (L : FVec F S128x64x64 .f32) : FVec F S128x64x64 .f32 :=
  have cst : F .f32 := Scalar.ofBits .f32 0x3E800000#32
  have a : FVec F S128x64x64 .f32 := mulf L (broadcast S128x64x64 cst)
  have mx : FVec F S128x64 .f32 := multiReduction .maximumf [2] S128x64 a 0xFF800000#32 reduces_S128x64x64_S128x64 (.inl rfl) rfl
  have cni : F .f32 := Scalar.ofBits .f32 0xFF800000#32
  have mx' : FVec F S128x64 .f32 := maximumf (broadcast S128x64 cni) mx
  have s : FVec F S128x64x64 .f32 := subf a (broadcastTo S128x64x64 (shapeCast S128x64x1 mx' shapeCasts_S128x64_S128x64x1) broadcasts_S128x64x1_S128x64x64)
  have e : FVec F S128x64x64 .f32 := exp s
  have sm : FVec F S128x64 .f32 := multiReduction .add [2] S128x64 e 0x00000000#32 reduces_S128x64x64_S128x64 (.inl rfl) rfl
  divf e (broadcastTo S128x64x64 (shapeCast S128x64x1 sm shapeCasts_S128x64_S128x64x1) broadcasts_S128x64x1_S128x64x64)

/-- A per-row value [128, 64] given a trailing unit axis and broadcast along the last axis, at (tl, gq, gk). -/
theorem rowBroadcast_apply (v : FVec Ideal S128x64 .f32) (tl : Fin 128) (gq gk : Fin 64) :
    broadcastTo S128x64x64 (shapeCast S128x64x1 v shapeCasts_S128x64_S128x64x1) broadcasts_S128x64x1_S128x64x64 (ix3 tl gq gk)
      = v (ix2 tl gq) := by
  refine (broadcastTo_apply _ broadcasts_S128x64x1_S128x64x64 (ix3 tl gq gk) (ix3 tl gq (0 : Fin 1)) (fun a => by
    match a with
    | ⟨0, _⟩ => rfl
    | ⟨1, _⟩ => rfl
    | ⟨2, _⟩ => rfl)).trans ?_
  refine shapeCast_apply v shapeCasts_S128x64_S128x64x1 (ix3 tl gq (0 : Fin 1)) (ix2 tl gq) ?_
  rw [Shape.rowMajor_val_two, Shape.rowMajor_val_three]
  show tl.val * 64 + gq.val = (tl.val * 64 + gq.val) * 1 + 0
  omega

/-- The row (tl, gq) with key group `k` put back. -/
theorem lift_row (tl : Fin 128) (gq : Fin 64) (k : Fin (S128x64x64.size 2)) :
    reduces_S128x64x64_S128x64.lift (ix2 tl gq) k = ix3 tl gq (⟨k.val, k.isLt⟩ : Fin 64) := by
  funext c; apply Fin.ext
  match c with
  | ⟨0, _⟩ => rfl
  | ⟨1, _⟩ => rfl
  | ⟨2, _⟩ => rfl

/-- The body's row maximum at (tl, gq): the fold of `max` from −∞ over the row, and once more against −∞. -/
theorem rowMax_apply (a : FVec Ideal S128x64x64 .f32) (tl : Fin 128) (gq : Fin 64) :
    maximumf (broadcast S128x64 (Scalar.ofBits (F := Ideal) .f32 0xFF800000#32))
        (multiReduction .maximumf [2] S128x64 a 0xFF800000#32 reduces_S128x64x64_S128x64 (.inl rfl) rfl) (ix2 tl gq)
      = rowMax (fun k => a (ix3 tl gq k)) := by
  refine (maximumf_apply _ _ _).trans ?_
  unfold rowMax
  refine congrArg (max negInf) ?_
  refine (Ideal.multiReduction_maximumf_single a 0xFF800000#32 reduces_S128x64x64_S128x64 _ _ (ix2 tl gq)).trans ?_
  refine congrArg (fun f => Finset.fold max negInf f (Finset.univ : Finset (Fin 64))) ?_
  funext k
  exact congrArg a (lift_row tl gq k)

/-- The body's row sum of a [128, 64, 64] value at (tl, gq). -/
theorem rowSum_apply (e : FVec Ideal S128x64x64 .f32) (tl : Fin 128) (gq : Fin 64) :
    multiReduction .add [2] S128x64 e 0x00000000#32 reduces_S128x64x64_S128x64 (.inl rfl) rfl (ix2 tl gq)
      = ∑ k : Fin 64, e (ix3 tl gq k) := by
  refine (Ideal.multiReduction_add_single e 0x00000000#32 reduces_S128x64x64_S128x64 _ _ (ix2 tl gq)).trans ?_
  refine Finset.sum_congr rfl fun k _ => ?_
  exact congrArg e (lift_row tl gq k)

/-- The body's softmax at (tl, gq, gk) is the specification's row softmax of the scaled row. -/
theorem ksm_apply (L : FVec Ideal S128x64x64 .f32) (tl : Fin 128) (gq gk : Fin 64) :
    ksm L (ix3 tl gq gk) = softmaxRow (fun k => L (ix3 tl gq k) * quarter) gk := by
  unfold ksm softmaxRow
  refine (divf_apply _ _ _).trans ?_
  rw [rowBroadcast_apply, rowSum_apply]
  have hrow : ∀ k : Fin 64, exp (subf (mulf L (broadcast S128x64x64 (Scalar.ofBits (F := Ideal) .f32 0x3E800000#32)))
        (broadcastTo S128x64x64 (shapeCast S128x64x1 (maximumf (broadcast S128x64 (Scalar.ofBits (F := Ideal) .f32 0xFF800000#32))
          (multiReduction .maximumf [2] S128x64 (mulf L (broadcast S128x64x64 (Scalar.ofBits (F := Ideal) .f32 0x3E800000#32))) 0xFF800000#32 reduces_S128x64x64_S128x64 (.inl rfl) rfl))
          shapeCasts_S128x64_S128x64x1) broadcasts_S128x64x1_S128x64x64)) (ix3 tl gq k)
      = Ideal.exp (L (ix3 tl gq k) * quarter - rowMax (fun k' => L (ix3 tl gq k') * quarter)) := by
    intro k
    show Ideal.exp (_ - _) = _
    rw [rowBroadcast_apply, rowMax_apply]
    rfl
  rw [hrow gk]
  exact congrArg (Ideal.div _) (Finset.sum_congr rfl fun k _ => hrow k)

/-! ## The two matrix products read at an index -/

theorem lhs_scores_0 (i : S128x64x64.Idx) (q : dot_S128x64x16_S128x64x16_S128x64x64_2_2_1_1_0_0.contr.Idx) : (dot_S128x64x16_S128x64x16_S128x64x64_2_2_1_1_0_0.lhsIdx i q 0).val = (i 0).val := by
  unfold DotDims.lhsIdx
  rw [dif_pos (show (0 : Fin S128x64x16.rank) ∈ dot_S128x64x16_S128x64x16_S128x64x64_2_2_1_1_0_0.lhsBatch by decide)]
  rfl
theorem lhs_scores_1 (i : S128x64x64.Idx) (q : dot_S128x64x16_S128x64x16_S128x64x64_2_2_1_1_0_0.contr.Idx) : (dot_S128x64x16_S128x64x16_S128x64x64_2_2_1_1_0_0.lhsIdx i q 1).val = (i 1).val := by
  unfold DotDims.lhsIdx
  rw [dif_neg (show ¬(1 : Fin S128x64x16.rank) ∈ dot_S128x64x16_S128x64x16_S128x64x64_2_2_1_1_0_0.lhsBatch by decide), dif_pos (show (1 : Fin S128x64x16.rank) ∈ dot_S128x64x16_S128x64x16_S128x64x64_2_2_1_1_0_0.lhsNonContracting by decide)]
  rfl
theorem lhs_scores_2 (i : S128x64x64.Idx) (q : dot_S128x64x16_S128x64x16_S128x64x64_2_2_1_1_0_0.contr.Idx) : (dot_S128x64x16_S128x64x16_S128x64x64_2_2_1_1_0_0.lhsIdx i q 2).val = (q ⟨0, by decide⟩).val :=
  dot_S128x64x16_S128x64x16_S128x64x64_2_2_1_1_0_0.lhsIdx_val_of_single rfl i q
theorem rhs_scores_0 (i : S128x64x64.Idx) (q : dot_S128x64x16_S128x64x16_S128x64x64_2_2_1_1_0_0.contr.Idx) : (dot_S128x64x16_S128x64x16_S128x64x64_2_2_1_1_0_0.rhsIdx i q 0).val = (i 0).val := by
  unfold DotDims.rhsIdx
  rw [dif_pos (show (0 : Fin S128x64x16.rank) ∈ dot_S128x64x16_S128x64x16_S128x64x64_2_2_1_1_0_0.rhsBatch by decide)]
  rfl
theorem rhs_scores_1 (i : S128x64x64.Idx) (q : dot_S128x64x16_S128x64x16_S128x64x64_2_2_1_1_0_0.contr.Idx) : (dot_S128x64x16_S128x64x16_S128x64x64_2_2_1_1_0_0.rhsIdx i q 1).val = (i 2).val := by
  unfold DotDims.rhsIdx
  rw [dif_neg (show ¬(1 : Fin S128x64x16.rank) ∈ dot_S128x64x16_S128x64x16_S128x64x64_2_2_1_1_0_0.rhsBatch by decide), dif_pos (show (1 : Fin S128x64x16.rank) ∈ dot_S128x64x16_S128x64x16_S128x64x64_2_2_1_1_0_0.rhsNonContracting by decide)]
  rfl
theorem rhs_scores_2 (i : S128x64x64.Idx) (q : dot_S128x64x16_S128x64x16_S128x64x64_2_2_1_1_0_0.contr.Idx) : (dot_S128x64x16_S128x64x16_S128x64x64_2_2_1_1_0_0.rhsIdx i q 2).val = (q ⟨0, by decide⟩).val :=
  dot_S128x64x16_S128x64x16_S128x64x64_2_2_1_1_0_0.rhsIdx_val_of_single rfl i q

/-- The scores' matrix product into a zero accumulator, at (tl, gq, gk): the sum over the head's 16 channels of the
    query row's entry times the key row's. -/
theorem scores_apply (A B : FVec Ideal S128x64x16 .bf16) (tl : Fin 128) (gq gk : Fin 64) :
    matmul dot_S128x64x16_S128x64x16_S128x64x64_2_2_1_1_0_0 none A B (constant S128x64x64 .f32 0x00000000#32) (ix3 tl gq gk)
      = ∑ d : Fin 16, A (ix3 tl gq d) * B (ix3 tl gk d) := by
  simp only [matmul]
  rw [Ideal.matmul_constant_zero_apply, ← Equiv.sum_comp (ValueIdx.contrEquiv1 dot_S128x64x16_S128x64x16_S128x64x64_2_2_1_1_0_0 16 rfl rfl).symm]
  refine Finset.sum_congr rfl fun k _ => ?_
  have hk := ValueIdx.contrEquiv1_symm_val dot_S128x64x16_S128x64x16_S128x64x64_2_2_1_1_0_0 16 rfl rfl k
  have el : dot_S128x64x16_S128x64x16_S128x64x64_2_2_1_1_0_0.lhsIdx (ix3 tl gq gk) ((ValueIdx.contrEquiv1 dot_S128x64x16_S128x64x16_S128x64x64_2_2_1_1_0_0 16 rfl rfl).symm k) = ix3 tl gq k := funext fun a => Fin.ext (by
    match a with
    | ⟨0, _⟩ => exact lhs_scores_0 _ _
    | ⟨1, _⟩ => exact lhs_scores_1 _ _
    | ⟨2, _⟩ => exact (lhs_scores_2 _ _).trans hk)
  have er : dot_S128x64x16_S128x64x16_S128x64x64_2_2_1_1_0_0.rhsIdx (ix3 tl gq gk) ((ValueIdx.contrEquiv1 dot_S128x64x16_S128x64x16_S128x64x64_2_2_1_1_0_0 16 rfl rfl).symm k) = ix3 tl gk k := funext fun a => Fin.ext (by
    match a with
    | ⟨0, _⟩ => exact rhs_scores_0 _ _
    | ⟨1, _⟩ => exact rhs_scores_1 _ _
    | ⟨2, _⟩ => exact (rhs_scores_2 _ _).trans hk)
  rw [el, er]

theorem lhs_values_0 (i : S128x64x16.Idx) (q : dot_S128x64x64_S128x64x16_S128x64x16_2_1_1_2_0_0.contr.Idx) : (dot_S128x64x64_S128x64x16_S128x64x16_2_1_1_2_0_0.lhsIdx i q 0).val = (i 0).val := by
  unfold DotDims.lhsIdx
  rw [dif_pos (show (0 : Fin S128x64x64.rank) ∈ dot_S128x64x64_S128x64x16_S128x64x16_2_1_1_2_0_0.lhsBatch by decide)]
  rfl
theorem lhs_values_1 (i : S128x64x16.Idx) (q : dot_S128x64x64_S128x64x16_S128x64x16_2_1_1_2_0_0.contr.Idx) : (dot_S128x64x64_S128x64x16_S128x64x16_2_1_1_2_0_0.lhsIdx i q 1).val = (i 1).val := by
  unfold DotDims.lhsIdx
  rw [dif_neg (show ¬(1 : Fin S128x64x64.rank) ∈ dot_S128x64x64_S128x64x16_S128x64x16_2_1_1_2_0_0.lhsBatch by decide), dif_pos (show (1 : Fin S128x64x64.rank) ∈ dot_S128x64x64_S128x64x16_S128x64x16_2_1_1_2_0_0.lhsNonContracting by decide)]
  rfl
theorem lhs_values_2 (i : S128x64x16.Idx) (q : dot_S128x64x64_S128x64x16_S128x64x16_2_1_1_2_0_0.contr.Idx) : (dot_S128x64x64_S128x64x16_S128x64x16_2_1_1_2_0_0.lhsIdx i q 2).val = (q ⟨0, by decide⟩).val :=
  dot_S128x64x64_S128x64x16_S128x64x16_2_1_1_2_0_0.lhsIdx_val_of_single rfl i q
theorem rhs_values_0 (i : S128x64x16.Idx) (q : dot_S128x64x64_S128x64x16_S128x64x16_2_1_1_2_0_0.contr.Idx) : (dot_S128x64x64_S128x64x16_S128x64x16_2_1_1_2_0_0.rhsIdx i q 0).val = (i 0).val := by
  unfold DotDims.rhsIdx
  rw [dif_pos (show (0 : Fin S128x64x16.rank) ∈ dot_S128x64x64_S128x64x16_S128x64x16_2_1_1_2_0_0.rhsBatch by decide)]
  rfl
theorem rhs_values_1 (i : S128x64x16.Idx) (q : dot_S128x64x64_S128x64x16_S128x64x16_2_1_1_2_0_0.contr.Idx) : (dot_S128x64x64_S128x64x16_S128x64x16_2_1_1_2_0_0.rhsIdx i q 1).val = (q ⟨0, by decide⟩).val :=
  dot_S128x64x64_S128x64x16_S128x64x16_2_1_1_2_0_0.rhsIdx_val_of_single rfl i q
theorem rhs_values_2 (i : S128x64x16.Idx) (q : dot_S128x64x64_S128x64x16_S128x64x16_2_1_1_2_0_0.contr.Idx) : (dot_S128x64x64_S128x64x16_S128x64x16_2_1_1_2_0_0.rhsIdx i q 2).val = (i 2).val := by
  unfold DotDims.rhsIdx
  rw [dif_neg (show ¬(2 : Fin S128x64x16.rank) ∈ dot_S128x64x64_S128x64x16_S128x64x16_2_1_1_2_0_0.rhsBatch by decide), dif_pos (show (2 : Fin S128x64x16.rank) ∈ dot_S128x64x64_S128x64x16_S128x64x16_2_1_1_2_0_0.rhsNonContracting by decide)]
  rfl

/-- The weights-times-values matrix product into a zero accumulator, at (tl, gq, d): the sum over the 64 key groups of
    the weight times the value row's entry. -/
theorem values_apply (W : FVec Ideal S128x64x64 .bf16) (B : FVec Ideal S128x64x16 .bf16) (tl : Fin 128) (gq : Fin 64) (d : Fin 16) :
    matmul dot_S128x64x64_S128x64x16_S128x64x16_2_1_1_2_0_0 none W B (constant S128x64x16 .f32 0x00000000#32) (ix3 tl gq d)
      = ∑ gk : Fin 64, W (ix3 tl gq gk) * B (ix3 tl gk d) := by
  simp only [matmul]
  rw [Ideal.matmul_constant_zero_apply, ← Equiv.sum_comp (ValueIdx.contrEquiv1 dot_S128x64x64_S128x64x16_S128x64x16_2_1_1_2_0_0 64 rfl rfl).symm]
  refine Finset.sum_congr rfl fun k _ => ?_
  have hk := ValueIdx.contrEquiv1_symm_val dot_S128x64x64_S128x64x16_S128x64x16_2_1_1_2_0_0 64 rfl rfl k
  have el : dot_S128x64x64_S128x64x16_S128x64x16_2_1_1_2_0_0.lhsIdx (ix3 tl gq d) ((ValueIdx.contrEquiv1 dot_S128x64x64_S128x64x16_S128x64x16_2_1_1_2_0_0 64 rfl rfl).symm k) = ix3 tl gq k := funext fun a => Fin.ext (by
    match a with
    | ⟨0, _⟩ => exact lhs_values_0 _ _
    | ⟨1, _⟩ => exact lhs_values_1 _ _
    | ⟨2, _⟩ => exact (lhs_values_2 _ _).trans hk)
  have er : dot_S128x64x64_S128x64x16_S128x64x16_2_1_1_2_0_0.rhsIdx (ix3 tl gq d) ((ValueIdx.contrEquiv1 dot_S128x64x64_S128x64x16_S128x64x16_2_1_1_2_0_0 64 rfl rfl).symm k) = ix3 tl k d := funext fun a => Fin.ext (by
    match a with
    | ⟨0, _⟩ => exact rhs_values_0 _ _
    | ⟨1, _⟩ => exact (rhs_values_1 _ _).trans hk
    | ⟨2, _⟩ => exact rhs_values_2 _ _)
  rw [el, er]

/-! ## One head -/

/-- The channels `o … o+15` of a (local time, group, channel) value, cast to bf16 (the identity at the ideal values). -/
def headPart {F : FTy → Type} [FloatOps F] (off : Fin 3 → Nat) (h : S128x64x64.Slices off S128x64x16)
    (X : FVec F S128x64x64 .f32) : FVec F S128x64x16 .bf16 :=
  truncf .bf16 (extractStridedSlice S128x64x16 off X h) bitsLt_bf16_f32

/-- Channel `d` of the part that starts at channel `16·hd` is channel `16·hd + d`. -/
theorem headPart_apply (hd : Fin 4) (o : Nat) (ho : o = hd.val * 16) (h : S128x64x64.Slices ![0, 0, o] S128x64x16)
    (X : FVec Ideal S128x64x64 .f32) (tl : Fin 128) (g : Fin 64) (d : Fin 16) :
    headPart ![0, 0, o] h X (ix3 tl g d) = X (ix3 tl g (chan hd d)) := by
  unfold headPart
  show extractStridedSlice S128x64x16 ![0, 0, o] X h (ix3 tl g d) = X (ix3 tl g (chan hd d))
  refine extractStridedSlice_apply ![0, 0, o] X h (ix3 tl g d) (ix3 tl g (chan hd d)) (fun a => ?_)
  match a with
  | ⟨0, _⟩ => show tl.val = 0 + tl.val; omega
  | ⟨1, _⟩ => show g.val = 0 + g.val; omega
  | ⟨2, _⟩ => show hd.val * 16 + d.val = o + d.val; omega

/-- The head's raw scores: the query part times the key part over the head's channels. -/
def scoreK {F : FTy → Type} [FloatOps F] (off : Fin 3 → Nat) (h : S128x64x64.Slices off S128x64x16)
    (Qt Kt : FVec F S128x64x64 .f32) : FVec F S128x64x64 .f32 :=
  matmul dot_S128x64x16_S128x64x16_S128x64x64_2_2_1_1_0_0 none (headPart off h Qt) (headPart off h Kt) (constant S128x64x64 .f32 0x00000000#32)

/-- The head's attention weights as the body computes them. -/
def attnK {F : FTy → Type} [FloatOps F] (off : Fin 3 → Nat) (h : S128x64x64.Slices off S128x64x16)
    (Qt Kt : FVec F S128x64x64 .f32) : FVec F S128x64x64 .f32 :=
  ksm (scoreK off h Qt Kt)

/-- The head's output: the weights (cast to bf16) times the value part. -/
def xK {F : FTy → Type} [FloatOps F] (off : Fin 3 → Nat) (h : S128x64x64.Slices off S128x64x16)
    (Qt Kt Vt : FVec F S128x64x64 .f32) : FVec F S128x64x16 .f32 :=
  matmul dot_S128x64x64_S128x64x16_S128x64x16_2_1_1_2_0_0 none (truncf .bf16 (attnK off h Qt Kt) bitsLt_bf16_f32) (headPart off h Vt) (constant S128x64x16 .f32 0x00000000#32)

/-- A (local time, group, channel) value as a slice at one local time. -/
def timeSlice (X : FVec Ideal S128x64x64 .f32) (tl : Fin 128) : Slice := fun g h => X (ix3 tl g h)

theorem attnK_apply (hd : Fin 4) (o : Nat) (ho : o = hd.val * 16) (h : S128x64x64.Slices ![0, 0, o] S128x64x16)
    (Qt Kt : FVec Ideal S128x64x64 .f32) (tl : Fin 128) (gq gk : Fin 64) :
    attnK ![0, 0, o] h Qt Kt (ix3 tl gq gk) = attn (timeSlice Qt tl) (timeSlice Kt tl) hd gq gk := by
  unfold attnK attn
  refine (ksm_apply _ tl gq gk).trans ?_
  refine congrArg (fun r => softmaxRow r gk) ?_
  funext k
  unfold score scoreK
  refine congrArg (· * quarter) ?_
  refine (scores_apply _ _ tl gq k).trans ?_
  refine Finset.sum_congr rfl fun d _ => ?_
  rw [headPart_apply hd o ho h Qt tl gq d, headPart_apply hd o ho h Kt tl k d]
  rfl

theorem xK_apply (hd : Fin 4) (o : Nat) (ho : o = hd.val * 16) (h : S128x64x64.Slices ![0, 0, o] S128x64x16)
    (Qt Kt Vt : FVec Ideal S128x64x64 .f32) (tl : Fin 128) (gq : Fin 64) (d : Fin 16) :
    xK ![0, 0, o] h Qt Kt Vt (ix3 tl gq d) = xout (timeSlice Qt tl) (timeSlice Kt tl) (timeSlice Vt tl) hd gq d := by
  unfold xK xout
  refine (values_apply _ _ tl gq d).trans ?_
  refine Finset.sum_congr rfl fun gk _ => ?_
  rw [headPart_apply hd o ho h Vt tl gk d]
  refine congrArg (· * _) ?_
  exact attnK_apply hd o ho h Qt Kt tl gq gk

/-! ## The two stores -/

theorem offsets_zero : (![0, 0, 0, 0] : Fin 4 → Nat) = fun _ => 0 := funext fun a => by fin_cases a <;> rfl

/-- A loaded block with local time moved to the front. -/
abbrev timeFirst {F : FTy → Type} [FloatOps F] (x : Vec F S1x64x64x128 .f32) : FVec F S128x64x64 .f32 :=
  transpose S128x64x64 [2, 0, 1] (shapeCast S64x64x128 x shapeCasts_S1x64x64x128_S64x64x128) transposes_S64x64x128_p2_0_1_S128x64x64

theorem timeSlice_timeFirst (x : Vec Ideal S1x64x64x128 .f32) (tl : Fin 128) : timeSlice (timeFirst x) tl = blockSlice x tl :=
  funext fun g => funext fun h => timeFirst_apply x tl g h

/-- The four heads' outputs laid side by side along the channel axis. -/
def xAll {F : FTy → Type} [FloatOps F] (Qt Kt Vt : FVec F S128x64x64 .f32) : FVec F S128x64x64 .f32 :=
  concatenate S128x64x64 2 [⟨S128x64x16, xK ![0, 0, 0] slices_S128x64x64_o0_0_0_S128x64x16 Qt Kt Vt⟩, ⟨S128x64x16, xK ![0, 0, 16] slices_S128x64x64_o0_0_16_S128x64x16 Qt Kt Vt⟩,
    ⟨S128x64x16, xK ![0, 0, 32] slices_S128x64x64_o0_0_32_S128x64x16 Qt Kt Vt⟩, ⟨S128x64x16, xK ![0, 0, 48] slices_S128x64x64_o0_0_48_S128x64x16 Qt Kt Vt⟩]
    concatenates_S128x64x16_S128x64x16_S128x64x16_S128x64x16_S128x64x64_d2

/-- The four heads' weights summed from zero and scaled by ¼. -/
def aAll {F : FTy → Type} [FloatOps F] (Qt Kt : FVec F S128x64x64 .f32) : FVec F S128x64x64 .f32 :=
  mulf (addf (addf (addf (addf (broadcast S128x64x64 (Scalar.ofBits .f32 0x00000000#32)) (attnK ![0, 0, 0] slices_S128x64x64_o0_0_0_S128x64x16 Qt Kt))
    (attnK ![0, 0, 16] slices_S128x64x64_o0_0_16_S128x64x16 Qt Kt)) (attnK ![0, 0, 32] slices_S128x64x64_o0_0_32_S128x64x16 Qt Kt)) (attnK ![0, 0, 48] slices_S128x64x64_o0_0_48_S128x64x16 Qt Kt))
    (broadcast S128x64x64 (Scalar.ofBits .f32 0x3E800000#32))

/-- A (local time, group, ·) value moved back to (1, group, ·, local time), at an index. -/
theorem timeLast_apply (Y : FVec Ideal S128x64x64 .f32) (g h : Fin 64) (tl : Fin 128) :
    shapeCast S1x64x64x128 (transpose S64x64x128 [1, 2, 0] Y transposes_S128x64x64_p1_2_0_S64x64x128) shapeCasts_S64x64x128_S1x64x64x128
        (ix4 (0 : Fin 1) g h tl) = Y (ix3 tl g h) := by
  refine (shapeCast_apply _ shapeCasts_S64x64x128_S1x64x64x128 (ix4 (0 : Fin 1) g h tl) (ix3 g h tl) ?_).trans ?_
  · rw [Shape.rowMajor_val_three, Shape.rowMajor_val_four]
    show (g.val * 64 + h.val) * 128 + tl.val = ((0 * 64 + g.val) * 64 + h.val) * 128 + tl.val
    omega
  exact transpose_apply [1, 2, 0] Y transposes_S128x64x64_p1_2_0_S64x64x128 (ix3 g h tl) (ix3 tl g h) (fun b => by
    match b with
    | ⟨0, _⟩ => rfl
    | ⟨1, _⟩ => rfl
    | ⟨2, _⟩ => rfl)

/-- The x store's payload is the heads' outputs, side by side, moved back. -/
theorem xpay_eq (x0 x1 x2 : Vec Ideal S1x64x64x128 .f32) :
    k0_pay2 (k0_pay9 x0 x1 x2) (k0_pay14 (k0_pay10 x0) (k0_pay11 x1) (k0_pay12 x2)) (k0_pay17 (k0_pay4 x0) (k0_pay5 x1) (k0_pay6 x2))
        (k0_pay18 (k0_pay6 x2)) (k0_pay19 (k0_pay4 x0) (k0_pay5 x1))
      = shapeCast S1x64x64x128 (transpose S64x64x128 [1, 2, 0] (xAll (timeFirst x0) (timeFirst x1) (timeFirst x2))
          transposes_S128x64x64_p1_2_0_S64x64x128) shapeCasts_S64x64x128_S1x64x64x128 := rfl

/-- The mean-attention store's payload is the heads' weights summed and scaled, moved back. -/
theorem apay_eq (x0 x1 : Vec Ideal S1x64x64x128 .f32) :
    k0_pay3 (k0_pay16 (k0_pay4 x0) (k0_pay5 x1) (k0_pay8 x0 x1) (k0_pay10 x0) (k0_pay11 x1)) (k0_pay19 (k0_pay4 x0) (k0_pay5 x1))
      = shapeCast S1x64x64x128 (transpose S64x64x128 [1, 2, 0] (aAll (timeFirst x0) (timeFirst x1))
          transposes_S128x64x64_p1_2_0_S64x64x128) shapeCasts_S64x64x128_S1x64x64x128 := rfl

/-- The heads' outputs side by side, at channel `16·hd + d`: head `hd`'s output at `d`. -/
theorem xAll_apply (Qt Kt Vt : FVec Ideal S128x64x64 .f32) (tl : Fin 128) (g : Fin 64) (hd : Fin 4) (d : Fin 16) :
    xAll Qt Kt Vt (ix3 tl g (chan hd d)) = xout (timeSlice Qt tl) (timeSlice Kt tl) (timeSlice Vt tl) hd g d := by
  unfold xAll
  let xs : List ((s : Shape) × (s.Idx → EReal)) := [⟨S128x64x16, xK ![0, 0, 0] slices_S128x64x64_o0_0_0_S128x64x16 Qt Kt Vt⟩, ⟨S128x64x16, xK ![0, 0, 16] slices_S128x64x64_o0_0_16_S128x64x16 Qt Kt Vt⟩, ⟨S128x64x16, xK ![0, 0, 32] slices_S128x64x64_o0_0_32_S128x64x16 Qt Kt Vt⟩, ⟨S128x64x16, xK ![0, 0, 48] slices_S128x64x64_o0_0_48_S128x64x16 Qt Kt Vt⟩]
  have hi : ∀ b : Fin S128x64x16.rank, b.cast (rfl : S128x64x16.rank = S128x64x64.rank) ≠ (2 : Fin S128x64x64.rank) →
      (ix3 tl g d b).val = (ix3 tl g (chan hd d) (b.cast rfl)).val := by
    intro b hb
    match b with
    | ⟨0, _⟩ => rfl
    | ⟨1, _⟩ => rfl
    | ⟨2, _⟩ => exact absurd rfl hb
  match hd with
  | ⟨0, _⟩ =>
    refine (concatenate_apply_piece (2 : Fin S128x64x64.rank) xs concatenates_S128x64x16_S128x64x16_S128x64x16_S128x64x16_S128x64x64_d2
      (ix3 tl g (chan ⟨0, by decide⟩ d)) 0 (by show (0 : ℕ) < 4; omega) S128x64x16 _ rfl rfl 0 rfl (ix3 tl g d) hi (by show 0 + d.val = 0 * 16 + d.val; omega)).trans ?_
    exact xK_apply ⟨0, by decide⟩ 0 rfl _ Qt Kt Vt tl g d
  | ⟨1, _⟩ =>
    refine (concatenate_apply_piece (2 : Fin S128x64x64.rank) xs concatenates_S128x64x16_S128x64x16_S128x64x16_S128x64x16_S128x64x64_d2
      (ix3 tl g (chan ⟨1, by decide⟩ d)) 1 (by show (1 : ℕ) < 4; omega) S128x64x16 _ rfl rfl 16 rfl (ix3 tl g d) hi (by show 16 + d.val = 1 * 16 + d.val; omega)).trans ?_
    exact xK_apply ⟨1, by decide⟩ 16 rfl _ Qt Kt Vt tl g d
  | ⟨2, _⟩ =>
    refine (concatenate_apply_piece (2 : Fin S128x64x64.rank) xs concatenates_S128x64x16_S128x64x16_S128x64x16_S128x64x16_S128x64x64_d2
      (ix3 tl g (chan ⟨2, by decide⟩ d)) 2 (by show (2 : ℕ) < 4; omega) S128x64x16 _ rfl rfl 32 rfl (ix3 tl g d) hi (by show 32 + d.val = 2 * 16 + d.val; omega)).trans ?_
    exact xK_apply ⟨2, by decide⟩ 32 rfl _ Qt Kt Vt tl g d
  | ⟨3, _⟩ =>
    refine (concatenate_apply_piece (2 : Fin S128x64x64.rank) xs concatenates_S128x64x16_S128x64x16_S128x64x16_S128x64x16_S128x64x64_d2
      (ix3 tl g (chan ⟨3, by decide⟩ d)) 3 (by show (3 : ℕ) < 4; omega) S128x64x16 _ rfl rfl 48 rfl (ix3 tl g d) hi (by show 48 + d.val = 3 * 16 + d.val; omega)).trans ?_
    exact xK_apply ⟨3, by decide⟩ 48 rfl _ Qt Kt Vt tl g d

/-- The heads' weights summed and scaled, at (tl, gq, gk). -/
theorem aAll_apply (Qt Kt : FVec Ideal S128x64x64 .f32) (tl : Fin 128) (gq gk : Fin 64) :
    aAll Qt Kt (ix3 tl gq gk) = amean (timeSlice Qt tl) (timeSlice Kt tl) gq gk := by
  unfold aAll amean
  show ((((zero32 + attnK ![0, 0, 0] slices_S128x64x64_o0_0_0_S128x64x16 Qt Kt (ix3 tl gq gk)) + attnK ![0, 0, 16] slices_S128x64x64_o0_0_16_S128x64x16 Qt Kt (ix3 tl gq gk))
    + attnK ![0, 0, 32] slices_S128x64x64_o0_0_32_S128x64x16 Qt Kt (ix3 tl gq gk)) + attnK ![0, 0, 48] slices_S128x64x64_o0_0_48_S128x64x16 Qt Kt (ix3 tl gq gk)) * quarter = _
  rw [attnK_apply 0 0 rfl, attnK_apply 1 16 rfl, attnK_apply 2 32 rfl, attnK_apply 3 48 rfl]

/-- What the body leaves in the x window's buffer, at (0, group, channel, local time). -/
theorem out0_3_apply (x0 x1 x2 : Vec Ideal S1x64x64x128 .f32) (g h : Fin 64) (tl : Fin 128) :
    out0_3 (F := Ideal) x0 x1 x2 (ix4 (0 : Fin 1) g h tl)
      = xout (blockSlice x0 tl) (blockSlice x1 tl) (blockSlice x2 tl) (headOf h) g (inHead h) := by
  unfold out0_3
  rw [View.canon_unit_zero offsets_zero]
  simp only [View.ld_unit_zero (S := S1x64x64x128) offsets_zero]
  rw [xpay_eq, timeLast_apply, ← timeSlice_timeFirst x0 tl, ← timeSlice_timeFirst x1 tl, ← timeSlice_timeFirst x2 tl]
  refine Eq.trans ?_ (xAll_apply _ _ _ tl g (headOf h) (inHead h))
  rw [chan_headOf_inHead]

/-- What the body leaves in the mean-attention window's buffer, at (0, query group, key group, local time). -/
theorem out0_4_apply (x0 x1 x2 : Vec Ideal S1x64x64x128 .f32) (gq gk : Fin 64) (tl : Fin 128) :
    out0_4 (F := Ideal) x0 x1 x2 (ix4 (0 : Fin 1) gq gk tl)
      = amean (blockSlice x0 tl) (blockSlice x1 tl) gq gk := by
  unfold out0_4
  rw [View.canon_unit_zero offsets_zero]
  simp only [View.ld_unit_zero (S := S1x64x64x128) offsets_zero]
  rw [apay_eq, timeLast_apply, ← timeSlice_timeFirst x0 tl, ← timeSlice_timeFirst x1 tl]
  exact aAll_apply _ _ tl gq gk

end Cert.Attn.Body

end
-- ==== Proof.KernelValue.lean ====
/-
  From the body's blocks to the kernel program's two results.

  Grid point t of the 4 × 16 grid is batch t / 16 and time tile t % 16; each window's block there is
  (batch, ·, ·, 128·tile + ·) of its array.  So an input block at local time tl is the argument array's slice at that
  batch and time 128·tile + tl, what the point writes back to each output array is that block of X4 (resp. A4) of the
  argument arrays, the 64 blocks cover each output array, and after the region the two arrays hold X4 and A4 whole.
  The two reshapes that follow, read at an index through the row-major order, give Gx and Ga.
-/
import proofs.«128201_j31353261260858_1_alg».proof.Proof.KernelBody
import proofs.«128201_j31353261260858_1_alg».proof.Proof.Gen.KernelIdeal.Frame
import Idealize.ShloMosaic.Lib.Pipeline.Value
import Idealize.ShloMosaic.Lib.StableHlo.Run

noncomputable section

namespace Cert.Attn.KernelValue

open Idealize.ShloMosaic Idealize.ShloMosaic.ValueIdx Idealize.ShloMosaic.TcCoe Idealize.SL.Sem
open Cert.KernelIdeal Cert.KernelIdeal.Gen Cert.Attn

section Blocks

open Idealize.ShloMosaic.Pipeline (Dat)

variable (m : (ℓ : Loc nD τ sig) → Buf (Elt Ideal) ℓ)

/-! ## The grid's index maps -/

/-- The printed index maps, decided over the grid: point `t` of the 4 × 16 grid is batch `t / 16` and time tile
    `t % 16`, and every window's block index there is (batch, 0, 0, time tile). -/
theorem idx_facts : ∀ t : Fin cfg0.N,
    win0_0.index t (0 : Fin 4) = t.val / 16 ∧ win0_0.index t (1 : Fin 4) = 0 ∧ win0_0.index t (2 : Fin 4) = 0 ∧ win0_0.index t (3 : Fin 4) = t.val % 16
    ∧ win0_1.index t (0 : Fin 4) = t.val / 16 ∧ win0_1.index t (1 : Fin 4) = 0 ∧ win0_1.index t (2 : Fin 4) = 0 ∧ win0_1.index t (3 : Fin 4) = t.val % 16
    ∧ win0_2.index t (0 : Fin 4) = t.val / 16 ∧ win0_2.index t (1 : Fin 4) = 0 ∧ win0_2.index t (2 : Fin 4) = 0 ∧ win0_2.index t (3 : Fin 4) = t.val % 16
    ∧ win0_3.index t (0 : Fin 4) = t.val / 16 ∧ win0_3.index t (1 : Fin 4) = 0 ∧ win0_3.index t (2 : Fin 4) = 0 ∧ win0_3.index t (3 : Fin 4) = t.val % 16
    ∧ win0_4.index t (0 : Fin 4) = t.val / 16 ∧ win0_4.index t (1 : Fin 4) = 0 ∧ win0_4.index t (2 : Fin 4) = 0 ∧ win0_4.index t (3 : Fin 4) = t.val % 16 :=
  (by decide +kernel : ∀ t : Fin grid0.N, _)

theorem point_lt (t : Fin cfg0.N) : t.val < 64 := lt_of_lt_of_eq t.isLt N_0

/-- The batch of grid point `t`. -/
def batchOf (t : Fin cfg0.N) : Fin 4 := ⟨t.val / 16, by have := point_lt t; omega⟩
/-- The time tile of grid point `t`. -/
def tileOf (t : Fin cfg0.N) : Fin 16 := ⟨t.val % 16, by omega⟩
/-- Time `128·tt + tl`: local time `tl` of time tile `tt`. -/
def timeAt (tt : Fin 16) (tl : Fin 128) : Fin 2048 := ⟨128 * tt.val + tl.val, by have := tt.isLt; have := tl.isLt; omega⟩

/-! ## An output block's entries from the argument arrays -/

theorem X4_ix4 (q k v : Arr) (b : Fin 4) (g h : Fin 64) (T : Fin 2048) :
    X4 q k v (ix4 b g h T) = xout (sliceAt q b T) (sliceAt k b T) (sliceAt v b T) (headOf h) g (inHead h) := rfl

theorem A4_ix4 (q k : Arr) (b : Fin 4) (gq gk : Fin 64) (T : Fin 2048) :
    A4 q k (ix4 b gq gk T) = amean (sliceAt q b T) (sliceAt k b T) gq gk := rfl

/-- A block that holds batch `b`, time tile `tt` of an array is, at local time `tl`, the array's slice at
    batch `b` and time `128·tt + tl`. -/
theorem blockSlice_eq (x : Vec Ideal S1x64x64x128 .f32) (q : Arr) (b : Fin 4) (tt : Fin 16)
    (hx : ∀ (g h : Fin 64) (tl : Fin 128), x (ix4 (0 : Fin 1) g h tl) = q (ix4 b g h (timeAt tt tl))) (tl : Fin 128) :
    Body.blockSlice x tl = sliceAt q b (timeAt tt tl) :=
  funext fun g => funext fun h => hx g h tl

/-- An index of the array from its coordinates' values. -/
theorem arr_idx_eq (i : S4x64x64x2048.Idx) (b : Fin 4) (g h : Fin 64) (T : Fin 2048)
    (e0 : (i 0).val = b.val) (e1 : (i 1).val = g.val) (e2 : (i 2).val = h.val) (e3 : (i 3).val = T.val) :
    i = ix4 b g h T := by
  funext a
  apply Fin.ext
  match a with
  | ⟨0, _⟩ => exact e0
  | ⟨1, _⟩ => exact e1
  | ⟨2, _⟩ => exact e2
  | ⟨3, _⟩ => exact e3

/-- An index of a block from its coordinates' values. -/
theorem blk_idx_eq (y : S1x64x64x128.Idx) (g h : Fin 64) (tl : Fin 128)
    (e1 : (y 1).val = g.val) (e2 : (y 2).val = h.val) (e3 : (y 3).val = tl.val) :
    y = ix4 (0 : Fin 1) g h tl := by
  funext a
  apply Fin.ext
  match a with
  | ⟨0, _⟩ => show (y 0).val = 0; have h0 : (y 0).val < 1 := (y 0).isLt; omega
  | ⟨1, _⟩ => exact e1
  | ⟨2, _⟩ => exact e2
  | ⟨3, _⟩ => exact e3

/-- The x window's buffer after the body, at block index (0, g, h, tl), is `X4` of the arrays at the array index
    (b, g, h, 128·tt + tl) — when the three input blocks hold batch `b`, time tile `tt` of the arrays. -/
theorem xblock_entry (x0 x1 x2 : Vec Ideal S1x64x64x128 .f32) (q k v : Arr) (b : Fin 4) (tt : Fin 16)
    (h0 : ∀ (g h : Fin 64) (tl : Fin 128), x0 (ix4 (0 : Fin 1) g h tl) = q (ix4 b g h (timeAt tt tl)))
    (h1 : ∀ (g h : Fin 64) (tl : Fin 128), x1 (ix4 (0 : Fin 1) g h tl) = k (ix4 b g h (timeAt tt tl)))
    (h2 : ∀ (g h : Fin 64) (tl : Fin 128), x2 (ix4 (0 : Fin 1) g h tl) = v (ix4 b g h (timeAt tt tl)))
    (y : S1x64x64x128.Idx) (i : S4x64x64x2048.Idx) (g h : Fin 64) (tl : Fin 128)
    (y1 : (y 1).val = g.val) (y2 : (y 2).val = h.val) (y3 : (y 3).val = tl.val)
    (e0 : (i 0).val = b.val) (e1 : (i 1).val = g.val) (e2 : (i 2).val = h.val)
    (e3 : (i 3).val = 128 * tt.val + tl.val) :
    out0_3 (F := Ideal) x0 x1 x2 y = X4 q k v i := by
  rw [arr_idx_eq i b g h (timeAt tt tl) e0 e1 e2 e3, X4_ix4, blk_idx_eq y g h tl y1 y2 y3,
    Body.out0_3_apply, blockSlice_eq x0 q b tt h0, blockSlice_eq x1 k b tt h1, blockSlice_eq x2 v b tt h2]

/-- The mean-attention window's buffer after the body, likewise, is `A4` of the arrays. -/
theorem ablock_entry (x0 x1 x2 : Vec Ideal S1x64x64x128 .f32) (q k : Arr) (b : Fin 4) (tt : Fin 16)
    (h0 : ∀ (g h : Fin 64) (tl : Fin 128), x0 (ix4 (0 : Fin 1) g h tl) = q (ix4 b g h (timeAt tt tl)))
    (h1 : ∀ (g h : Fin 64) (tl : Fin 128), x1 (ix4 (0 : Fin 1) g h tl) = k (ix4 b g h (timeAt tt tl)))
    (y : S1x64x64x128.Idx) (i : S4x64x64x2048.Idx) (g h : Fin 64) (tl : Fin 128)
    (y1 : (y 1).val = g.val) (y2 : (y 2).val = h.val) (y3 : (y 3).val = tl.val)
    (e0 : (i 0).val = b.val) (e1 : (i 1).val = g.val) (e2 : (i 2).val = h.val)
    (e3 : (i 3).val = 128 * tt.val + tl.val) :
    out0_4 (F := Ideal) x0 x1 x2 y = A4 q k i := by
  rw [arr_idx_eq i b g h (timeAt tt tl) e0 e1 e2 e3, A4_ix4, blk_idx_eq y g h tl y1 y2 y3,
    Body.out0_4_apply, blockSlice_eq x0 q b tt h0, blockSlice_eq x1 k b tt h1]

/-! ## The input windows' blocks, read off the argument arrays -/

/-- The three input windows' blocks at grid point `t`, at their literal type. -/
abbrev qblk (c : Dev nD) (t : Fin cfg0.N) : Vec Ideal S1x64x64x128 .f32 := iblk m c 0 t
abbrev kblk (c : Dev nD) (t : Fin cfg0.N) : Vec Ideal S1x64x64x128 .f32 := iblk m c 1 t
abbrev vblk (c : Dev nD) (t : Fin cfg0.N) : Vec Ideal S1x64x64x128 .f32 := iblk m c 2 t

/-- The three argument arrays as the region finds them, at their literal type. -/
abbrev qarr (c : Dev nD) : Arr := V m c main_arg0
abbrev karr (c : Dev nD) : Arr := V m c main_arg1
abbrev varr (c : Dev nD) : Arr := V m c main_arg2

/-- The q block of point `t` at (0, g, h, tl) is the q array at (batch, g, h, 128·tile + tl). -/
theorem qblk_apply (c : Dev nD) (t : Fin cfg0.N) (g h : Fin 64) (tl : Fin 128) :
    qblk m c t (ix4 (0 : Fin 1) g h tl) = qarr m c (ix4 (batchOf t) g h (timeAt (tileOf t) tl)) := by
  obtain ⟨e0, e1, e2, e3, -⟩ := idx_facts t
  unfold qblk iblk
  rw [View.read_apply]
  show V m c main_arg0 _ = V m c main_arg0 _
  congr 1
  funext a
  apply Fin.ext
  match a with
  | ⟨0, _⟩ => show win0_0.index t (0 : Fin 4) * 1 + 1 * (0 : Fin 1).val = t.val / 16; rw [e0]; simp
  | ⟨1, _⟩ => show win0_0.index t (1 : Fin 4) * 64 + 1 * g.val = g.val; rw [e1]; omega
  | ⟨2, _⟩ => show win0_0.index t (2 : Fin 4) * 64 + 1 * h.val = h.val; rw [e2]; omega
  | ⟨3, _⟩ => show win0_0.index t (3 : Fin 4) * 128 + 1 * tl.val = 128 * (t.val % 16) + tl.val; rw [e3]; omega

/-- The k block of point `t` at (0, g, h, tl) is the k array at (batch, g, h, 128·tile + tl). -/
theorem kblk_apply (c : Dev nD) (t : Fin cfg0.N) (g h : Fin 64) (tl : Fin 128) :
    kblk m c t (ix4 (0 : Fin 1) g h tl) = karr m c (ix4 (batchOf t) g h (timeAt (tileOf t) tl)) := by
  obtain ⟨-, -, -, -, e0, e1, e2, e3, -⟩ := idx_facts t
  unfold kblk iblk
  rw [View.read_apply]
  show V m c main_arg1 _ = V m c main_arg1 _
  congr 1
  funext a
  apply Fin.ext
  match a with
  | ⟨0, _⟩ => show win0_1.index t (0 : Fin 4) * 1 + 1 * (0 : Fin 1).val = t.val / 16; rw [e0]; simp
  | ⟨1, _⟩ => show win0_1.index t (1 : Fin 4) * 64 + 1 * g.val = g.val; rw [e1]; omega
  | ⟨2, _⟩ => show win0_1.index t (2 : Fin 4) * 64 + 1 * h.val = h.val; rw [e2]; omega
  | ⟨3, _⟩ => show win0_1.index t (3 : Fin 4) * 128 + 1 * tl.val = 128 * (t.val % 16) + tl.val; rw [e3]; omega

/-- The v block of point `t` at (0, g, h, tl) is the v array at (batch, g, h, 128·tile + tl). -/
theorem vblk_apply (c : Dev nD) (t : Fin cfg0.N) (g h : Fin 64) (tl : Fin 128) :
    vblk m c t (ix4 (0 : Fin 1) g h tl) = varr m c (ix4 (batchOf t) g h (timeAt (tileOf t) tl)) := by
  obtain ⟨-, -, -, -, -, -, -, -, e0, e1, e2, e3, -⟩ := idx_facts t
  unfold vblk iblk
  rw [View.read_apply]
  show V m c main_arg2 _ = V m c main_arg2 _
  congr 1
  funext a
  apply Fin.ext
  match a with
  | ⟨0, _⟩ => show win0_2.index t (0 : Fin 4) * 1 + 1 * (0 : Fin 1).val = t.val / 16; rw [e0]; simp
  | ⟨1, _⟩ => show win0_2.index t (1 : Fin 4) * 64 + 1 * g.val = g.val; rw [e1]; omega
  | ⟨2, _⟩ => show win0_2.index t (2 : Fin 4) * 64 + 1 * h.val = h.val; rw [e2]; omega
  | ⟨3, _⟩ => show win0_2.index t (3 : Fin 4) * 128 + 1 * tl.val = 128 * (t.val % 16) + tl.val; rw [e3]; omega

/-! ## What each grid point writes back -/

/-- WHAT POINT `t` WRITES BACK to the x array is block `t` of `X4` of the three argument arrays. -/
theorem xflushed_eq (c : Dev nD) (t : Fin cfg0.N) :
    (dats m 0 c).flushed 3 t = ((cfg0.win 3).blk t).view.read (Elt Ideal) (X4 (qarr m c) (karr m c) (varr m c)) := by
  show (cfg0.win 3).cut (grid0.coords t) ((dats m 0 c).after 3 t) = _
  rw [after0_3]
  obtain ⟨-, -, -, -, -, -, -, -, -, -, -, -, e0, e1, e2, e3, -⟩ := idx_facts t
  funext j
  show out0_3 (F := Ideal) (qblk m c t) (kblk m c t) (vblk m c t) j
    = X4 (qarr m c) (karr m c) (varr m c) (((cfg0.win 3).blk t).view.emb j)
  have hj0 : (j 0).val < 1 := (j 0).isLt
  have hj1 : (j 1).val < 64 := (j 1).isLt
  have hj2 : (j 2).val < 64 := (j 2).isLt
  have hj3 : (j 3).val < 128 := (j 3).isLt
  exact xblock_entry (qblk m c t) (kblk m c t) (vblk m c t) (qarr m c) (karr m c) (varr m c) (batchOf t) (tileOf t)
    (qblk_apply m c t) (kblk_apply m c t) (vblk_apply m c t) j (((cfg0.win 3).blk t).view.emb j)
    ⟨(j 1).val, hj1⟩ ⟨(j 2).val, hj2⟩ ⟨(j 3).val, hj3⟩ rfl rfl rfl
    (by show win0_3.index t (0 : Fin 4) * 1 + 1 * (j 0).val = t.val / 16; rw [e0]; omega)
    (by show win0_3.index t (1 : Fin 4) * 64 + 1 * (j 1).val = (j 1).val; rw [e1]; omega)
    (by show win0_3.index t (2 : Fin 4) * 64 + 1 * (j 2).val = (j 2).val; rw [e2]; omega)
    (by show win0_3.index t (3 : Fin 4) * 128 + 1 * (j 3).val = 128 * (t.val % 16) + (j 3).val; rw [e3]; omega)

/-- WHAT POINT `t` WRITES BACK to the mean-attention array is block `t` of `A4` of the q and k arrays. -/
theorem aflushed_eq (c : Dev nD) (t : Fin cfg0.N) :
    (dats m 0 c).flushed 4 t = ((cfg0.win 4).blk t).view.read (Elt Ideal) (A4 (qarr m c) (karr m c)) := by
  show (cfg0.win 4).cut (grid0.coords t) ((dats m 0 c).after 4 t) = _
  rw [after0_4]
  obtain ⟨-, -, -, -, -, -, -, -, -, -, -, -, -, -, -, -, e0, e1, e2, e3⟩ := idx_facts t
  funext j
  show out0_4 (F := Ideal) (qblk m c t) (kblk m c t) (vblk m c t) j
    = A4 (qarr m c) (karr m c) (((cfg0.win 4).blk t).view.emb j)
  have hj0 : (j 0).val < 1 := (j 0).isLt
  have hj1 : (j 1).val < 64 := (j 1).isLt
  have hj2 : (j 2).val < 64 := (j 2).isLt
  have hj3 : (j 3).val < 128 := (j 3).isLt
  exact ablock_entry (qblk m c t) (kblk m c t) (vblk m c t) (qarr m c) (karr m c) (batchOf t) (tileOf t)
    (qblk_apply m c t) (kblk_apply m c t) j (((cfg0.win 4).blk t).view.emb j)
    ⟨(j 1).val, hj1⟩ ⟨(j 2).val, hj2⟩ ⟨(j 3).val, hj3⟩ rfl rfl rfl
    (by show win0_4.index t (0 : Fin 4) * 1 + 1 * (j 0).val = t.val / 16; rw [e0]; omega)
    (by show win0_4.index t (1 : Fin 4) * 64 + 1 * (j 1).val = (j 1).val; rw [e1]; omega)
    (by show win0_4.index t (2 : Fin 4) * 64 + 1 * (j 2).val = (j 2).val; rw [e2]; omega)
    (by show win0_4.index t (3 : Fin 4) * 128 + 1 * (j 3).val = 128 * (t.val % 16) + (j 3).val; rw [e3]; omega)

/-! ## The blocks cover the output arrays -/

/-- An index of the x array is in point `t`'s block iff each coordinate is in the block's range on its axis. -/
theorem mem_xblk (t : Fin cfg0.N) (i : S4x64x64x2048.Idx) :
    i ∈ ((cfg0.win 3).blk t).view.set ↔ ∀ a : Fin 4, win0_3.index t a * S1x64x64x128.size a ≤ (i a).val
      ∧ (i a).val < win0_3.index t a * S1x64x64x128.size a + S1x64x64x128.size a := by
  show i ∈ ((View.whole main_v0_0).slice (win0_3.rect t)).set ↔ _
  rw [View.set_slice_whole, Rect.mem_set_unit]
  exact Iff.rfl

/-- The same of the mean-attention array. -/
theorem mem_ablk (t : Fin cfg0.N) (i : S4x64x64x2048.Idx) :
    i ∈ ((cfg0.win 4).blk t).view.set ↔ ∀ a : Fin 4, win0_4.index t a * S1x64x64x128.size a ≤ (i a).val
      ∧ (i a).val < win0_4.index t a * S1x64x64x128.size a + S1x64x64x128.size a := by
  show i ∈ ((View.whole main_v0_1).slice (win0_4.rect t)).set ↔ _
  rw [View.set_slice_whole, Rect.mem_set_unit]
  exact Iff.rfl

/-- The grid point whose blocks hold index (b, ·, ·, T): batch `b`, time tile `T / 128`. -/
def pointOf (i : S4x64x64x2048.Idx) : Fin cfg0.N :=
  ⟨(i 0).val * 16 + (i 3).val / 128, by
    have h0 : (i 0).val < 4 := (i 0).isLt
    have h3 : (i 3).val < 2048 := (i 3).isLt
    rw [show cfg0.N = 64 from N_0]; omega⟩

theorem pointOf_val (i : S4x64x64x2048.Idx) : (pointOf i).val = (i 0).val * 16 + (i 3).val / 128 := rfl

/-- Every index of the x array is in the block of the point of its batch and time tile. -/
theorem xcover (i : S4x64x64x2048.Idx) :
    ∃ t : Fin cfg0.N, (cfg0.win 3).flush t = true ∧ i ∈ ((cfg0.win 3).blk t).view.set := by
  have h0 : (i 0).val < 4 := (i 0).isLt
  have h1 : (i 1).val < 64 := (i 1).isLt
  have h2 : (i 2).val < 64 := (i 2).isLt
  have h3 : (i 3).val < 2048 := (i 3).isLt
  refine ⟨pointOf i, flush0_3 (pointOf i), ?_⟩
  rw [mem_xblk]
  obtain ⟨-, -, -, -, -, -, -, -, -, -, -, -, e0, e1, e2, e3, -⟩ := idx_facts (pointOf i)
  have ht := pointOf_val i
  intro a
  match a with
  | ⟨0, _⟩ => show win0_3.index (pointOf i) (0 : Fin 4) * 1 ≤ (i 0).val ∧ (i 0).val < win0_3.index (pointOf i) (0 : Fin 4) * 1 + 1; rw [e0, ht]; omega
  | ⟨1, _⟩ => show win0_3.index (pointOf i) (1 : Fin 4) * 64 ≤ (i 1).val ∧ (i 1).val < win0_3.index (pointOf i) (1 : Fin 4) * 64 + 64; rw [e1]; omega
  | ⟨2, _⟩ => show win0_3.index (pointOf i) (2 : Fin 4) * 64 ≤ (i 2).val ∧ (i 2).val < win0_3.index (pointOf i) (2 : Fin 4) * 64 + 64; rw [e2]; omega
  | ⟨3, _⟩ => show win0_3.index (pointOf i) (3 : Fin 4) * 128 ≤ (i 3).val ∧ (i 3).val < win0_3.index (pointOf i) (3 : Fin 4) * 128 + 128; rw [e3, ht]; omega

/-- Every index of the mean-attention array likewise. -/
theorem acover (i : S4x64x64x2048.Idx) :
    ∃ t : Fin cfg0.N, (cfg0.win 4).flush t = true ∧ i ∈ ((cfg0.win 4).blk t).view.set := by
  have h0 : (i 0).val < 4 := (i 0).isLt
  have h1 : (i 1).val < 64 := (i 1).isLt
  have h2 : (i 2).val < 64 := (i 2).isLt
  have h3 : (i 3).val < 2048 := (i 3).isLt
  refine ⟨pointOf i, flush0_4 (pointOf i), ?_⟩
  rw [mem_ablk]
  obtain ⟨-, -, -, -, -, -, -, -, -, -, -, -, -, -, -, -, e0, e1, e2, e3⟩ := idx_facts (pointOf i)
  have ht := pointOf_val i
  intro a
  match a with
  | ⟨0, _⟩ => show win0_4.index (pointOf i) (0 : Fin 4) * 1 ≤ (i 0).val ∧ (i 0).val < win0_4.index (pointOf i) (0 : Fin 4) * 1 + 1; rw [e0, ht]; omega
  | ⟨1, _⟩ => show win0_4.index (pointOf i) (1 : Fin 4) * 64 ≤ (i 1).val ∧ (i 1).val < win0_4.index (pointOf i) (1 : Fin 4) * 64 + 64; rw [e1]; omega
  | ⟨2, _⟩ => show win0_4.index (pointOf i) (2 : Fin 4) * 64 ≤ (i 2).val ∧ (i 2).val < win0_4.index (pointOf i) (2 : Fin 4) * 64 + 64; rw [e2]; omega
  | ⟨3, _⟩ => show win0_4.index (pointOf i) (3 : Fin 4) * 128 ≤ (i 3).val ∧ (i 3).val < win0_4.index (pointOf i) (3 : Fin 4) * 128 + 128; rw [e3, ht]; omega

/-! ## The two arrays after the region -/

/-- THE x ARRAY after the region is `X4` of the three argument arrays, whole. -/
theorem xfinal (c : Dev nD) : (dats m 0 c).arrAt 3 cfg0.N = X4 (qarr m c) (karr m c) (varr m c) :=
  (dats m 0 c).arrAt_eq_of_cover 3 (X4 (qarr m c) (karr m c) (varr m c)) (fun t _ => xflushed_eq m c t) xcover

/-- THE MEAN-ATTENTION ARRAY after the region is `A4` of the q and k arrays, whole. -/
theorem afinal (c : Dev nD) : (dats m 0 c).arrAt 4 cfg0.N = A4 (qarr m c) (karr m c) :=
  (dats m 0 c).arrAt_eq_of_cover 4 (A4 (qarr m c) (karr m c)) (fun t _ => aflushed_eq m c t) acover

/-! ## The two host reshapes after the region -/

/-- The x array reshaped to (batch, 64·group + channel, time), read at an index. -/
theorem reshape_x (q k v : Arr) :
    shapeCast S4x4096x2048 (X4 q k v) shapeCasts_S4x64x64x2048_S4x4096x2048 = Gx q k v := by
  funext i
  have h1 : (i 1).val < 4096 := (i 1).isLt
  show _ = X4 q k v (ix4 (i 0) ⟨(i 1).val / 64, by omega⟩ ⟨(i 1).val % 64, by omega⟩ (i 2))
  refine shapeCast_apply _ _ i _ ?_
  rw [Shape.rowMajor_val_four, Shape.rowMajor_val_three]
  show (((i 0).val * 64 + (i 1).val / 64) * 64 + (i 1).val % 64) * 2048 + (i 2).val
    = ((i 0).val * 4096 + (i 1).val) * 2048 + (i 2).val
  omega

/-- The mean-attention array reshaped to (batch, 1, query group, key group, time), read at an index. -/
theorem reshape_a (q k : Arr) :
    shapeCast S4x1x64x64x2048 (A4 q k) shapeCasts_S4x64x64x2048_S4x1x64x64x2048 = Ga q k := by
  funext i
  have h1 : (i 1).val < 1 := (i 1).isLt
  show _ = A4 q k (ix4 (i 0) (i 2) (i 3) (i 4))
  refine shapeCast_apply _ _ i _ ?_
  rw [Shape.rowMajor_val_four, Shape.rowMajor_val_five]
  show (((i 0).val * 64 + (i 2).val) * 64 + (i 3).val) * 2048 + (i 4).val
    = ((((i 0).val * 1 + (i 1).val) * 64 + (i 2).val) * 64 + (i 3).val) * 2048 + (i 4).val
  omega

/-- The first result after the host reshapes is `Gx` of the three argument arrays. -/
theorem v1_eq (c : Dev nD) :
    Pipeline.afterTail₀ cfgs (dats m) 0 (V0 m) [hostOps1] c main_v1 = Gx (qarr m c) (karr m c) (varr m c) := by
  unfold Pipeline.afterTail₀
  show StableHlo.after hostOps1 _ (Proc.devRef .tc main_v1) = _
  after_results
  have hx : Pipeline.withArrays (cfgs 0).spec c (V0 m c) (fun w => (dats m 0 c).arrAt w (cfgs 0).N)
      (Proc.devRef .tc main_v0_0) = X4 (qarr m c) (karr m c) (varr m c) :=
    (Pipeline.withArrays_arr spec0 launch0.win.arr_inj c _ _ 3).trans (xfinal m c)
  rw [hx]
  exact reshape_x (qarr m c) (karr m c) (varr m c)

/-- The second result after the host reshapes is `Ga` of the q and k arrays. -/
theorem v2_eq (c : Dev nD) :
    Pipeline.afterTail₀ cfgs (dats m) 0 (V0 m) [hostOps1] c main_v2 = Ga (qarr m c) (karr m c) := by
  unfold Pipeline.afterTail₀
  show StableHlo.after hostOps1 _ (Proc.devRef .tc main_v2) = _
  after_results
  have ha : Pipeline.withArrays (cfgs 0).spec c (V0 m c) (fun w => (dats m 0 c).arrAt w (cfgs 0).N)
      (Proc.devRef .tc main_v0_1) = A4 (qarr m c) (karr m c) :=
    (Pipeline.withArrays_arr spec0 launch0.win.arr_inj c _ _ 4).trans (afinal m c)
  rw [ha]
  exact reshape_a (qarr m c) (karr m c)

end Blocks

/-- Every weakly fair execution of the idealized kernel program ends with its two results at the specification's
    functions of the three argument arrays, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v1)
          = Gx (m ((c.tc : Thread nD τ).loc main_arg0)) (m ((c.tc : Thread nD τ).loc main_arg1)) (m ((c.tc : Thread nD τ).loc main_arg2))
      ∧ r.2.mem ((c.tc : Thread nD τ).loc main_v2)
          = Ga (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (run_main m ρ)
  have hv1 : main_v1 ∈ Pipeline.restRefs sig (cfgs 0).spec := Pipeline.mem_restRefs_of main_v1 rfl (by decide)
  have hv2 : main_v2 ∈ Pipeline.restRefs sig (cfgs 0).spec := Pipeline.mem_restRefs_of main_v2 rfl (by decide)
  exact ⟨((h c).2 main_v1 hv1).trans (v1_eq m c), ((h c).2 main_v2 hv2).trans (v2_eq m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c)))⟩

end Cert.Attn.KernelValue

end
-- ==== Proof.RefValue.lean ====
/-
  The reference program's two results are the specification's functions.

  The reference is read one operation at a time at an index built from its coordinates.  Its layout operations
  (split the 64 channels into 4 heads of 16, move batch, head and time to the front) turn every operand into a
  slice at a fixed batch and time; from there each arithmetic stage is literally the specification's formula.
-/
import proofs.«128201_j31353261260858_1_alg».proof.Proof.Gen.ReferenceIdeal.Read
import proofs.«128201_j31353261260858_1_alg».proof.Proof.Spec
import Idealize.ShloMosaic.Lib.Pipeline.Value
import Idealize.ShloMosaic.Lib.ValueIdx
import Idealize.ShloMosaic.PureOps.Ideal.Laws

noncomputable section

namespace Cert.Attn.RefValue

open Idealize.ShloMosaic Idealize.ShloMosaic.ValueIdx Cert.ReferenceIdeal Cert.ReferenceIdeal.Gen Cert.ReferenceIdeal.Read Cert.Attn

/-! ## The layout stages: every operand becomes a slice at a fixed batch and time -/

/-- Row-major arithmetic of the reshape that splits channel `16·hd + d` into (head, channel of the head). -/
theorem split_idx (b : Fin 4) (g : Fin 64) (hd : Fin 4) (d : Fin 16) (T : Fin 2048) :
    idx_main_v0 (ix5 b g hd d T) = ix4 b g (chan hd d) T := by
  refine funext fun a => Fin.ext ?_
  have hb : b.val < 4 := b.isLt
  have hg : g.val < 64 := g.isLt
  have hh : hd.val < 4 := hd.isLt
  have hdd : d.val < 16 := d.isLt
  have hT : T.val < 2048 := T.isLt
  match a with
  | ⟨0, _⟩ => show ((((b.val * 64 + g.val) * 4 + hd.val) * 16 + d.val) * 2048 + T.val) / 8388608 = b.val; omega
  | ⟨1, _⟩ => show ((((b.val * 64 + g.val) * 4 + hd.val) * 16 + d.val) * 2048 + T.val) / 131072 % 64 = g.val; omega
  | ⟨2, _⟩ => show ((((b.val * 64 + g.val) * 4 + hd.val) * 16 + d.val) * 2048 + T.val) / 2048 % 64 = hd.val * 16 + d.val; omega
  | ⟨3, _⟩ => show ((((b.val * 64 + g.val) * 4 + hd.val) * 16 + d.val) * 2048 + T.val) % 2048 = T.val; omega

/-- The query operand, (batch, head, time, group, channel of the head). -/
theorem v1_at (x : FVec Ideal S4x64x64x2048 .f32) (b : Fin 4) (hd : Fin 4) (T : Fin 2048) (g : Fin 64) (d : Fin 16) :
    val_main_v1 (F := Ideal) x (ix5 b hd T g d) = sliceAt x b T g (chan hd d) := by
  rw [val_main_v1_apply, val_main_v0_apply]
  have e : idx_main_v1 (ix5 b hd T g d) = ix5 b g hd d T := funext fun a => by
    match a with
    | ⟨0, _⟩ => rfl
    | ⟨1, _⟩ => rfl
    | ⟨2, _⟩ => rfl
    | ⟨3, _⟩ => rfl
    | ⟨4, _⟩ => rfl
  rw [e, split_idx]
  rfl

/-- The key operand, (batch, head, time, channel of the head, group). -/
theorem v3_at (x : FVec Ideal S4x64x64x2048 .f32) (b : Fin 4) (hd : Fin 4) (T : Fin 2048) (d : Fin 16) (g : Fin 64) :
    val_main_v3 (F := Ideal) x (ix5 b hd T d g) = sliceAt x b T g (chan hd d) := by
  rw [val_main_v3_apply, val_main_v2_apply]
  have e : idx_main_v3 (ix5 b hd T d g) = ix5 b g hd d T := funext fun a => by
    match a with
    | ⟨0, _⟩ => rfl
    | ⟨1, _⟩ => rfl
    | ⟨2, _⟩ => rfl
    | ⟨3, _⟩ => rfl
    | ⟨4, _⟩ => rfl
  rw [e]
  exact congrArg x (split_idx b g hd d T)

/-- The value operand, (batch, head, time, group, channel of the head). -/
theorem v5_at (x : FVec Ideal S4x64x64x2048 .f32) (b : Fin 4) (hd : Fin 4) (T : Fin 2048) (g : Fin 64) (d : Fin 16) :
    val_main_v5 (F := Ideal) x (ix5 b hd T g d) = sliceAt x b T g (chan hd d) := by
  rw [val_main_v5_apply, val_main_v4_apply]
  have e : idx_main_v5 (ix5 b hd T g d) = ix5 b g hd d T := funext fun a => by
    match a with
    | ⟨0, _⟩ => rfl
    | ⟨1, _⟩ => rfl
    | ⟨2, _⟩ => rfl
    | ⟨3, _⟩ => rfl
    | ⟨4, _⟩ => rfl
  rw [e]
  exact congrArg x (split_idx b g hd d T)

/-! ## The scores -/

/-- The scaled scores, (batch, head, time, query group, key group). -/
theorem v8_at (x0 x1 : FVec Ideal S4x64x64x2048 .f32) (b : Fin 4) (hd : Fin 4) (T : Fin 2048) (gq gk : Fin 64) :
    val_main_v8 (F := Ideal) x0 x1 (ix5 b hd T gq gk) = score (sliceAt x0 b T) (sliceAt x1 b T) hd gq gk := by
  rw [val_main_v8_apply, val_main_v6_apply, val_main_v7_apply, val_main_cst_apply]
  unfold score
  refine congrArg (· * quarter) (Finset.sum_congr rfl fun d _ => ?_)
  have el : lidx_main_v6 (ix5 b hd T gq gk) d = ix5 b hd T gq d := funext fun a => by
    match a with
    | ⟨0, _⟩ => rfl
    | ⟨1, _⟩ => rfl
    | ⟨2, _⟩ => rfl
    | ⟨3, _⟩ => rfl
    | ⟨4, _⟩ => rfl
  have er : ridx_main_v6 (ix5 b hd T gq gk) d = ix5 b hd T d gk := funext fun a => by
    match a with
    | ⟨0, _⟩ => rfl
    | ⟨1, _⟩ => rfl
    | ⟨2, _⟩ => rfl
    | ⟨3, _⟩ => rfl
    | ⟨4, _⟩ => rfl
  rw [el, er, v1_at, v3_at]

/-! ## The row maximum and the softmax -/

/-- The index over (batch, head, time, query group) with key group `k` put back on the last axis. -/
theorem lift_last (h : S4x4x2048x64x64.Reduces [4] S4x4x2048x64) (b : Fin 4) (hd : Fin 4) (T : Fin 2048) (gq : Fin 64)
    (k : Fin 64) : h.lift (ix4 b hd T gq) k = ix5 b hd T gq k := by
  refine funext fun c => Fin.ext ?_
  match c with
  | ⟨0, _⟩ => rfl
  | ⟨1, _⟩ => rfl
  | ⟨2, _⟩ => rfl
  | ⟨3, _⟩ => rfl
  | ⟨4, _⟩ => rfl

/-- The row maximum as the softmax lowers it: the fold of the maximum over the key groups from −∞, and once more against −∞. -/
theorem v11_at (x0 x1 : FVec Ideal S4x64x64x2048 .f32) (b : Fin 4) (hd : Fin 4) (T : Fin 2048) (gq : Fin 64) :
    val_main_v11 (F := Ideal) x0 x1 (ix4 b hd T gq) = rowMax (score (sliceAt x0 b T) (sliceAt x1 b T) hd gq) := by
  have h : S4x4x2048x64x64.Reduces [4] S4x4x2048x64 := by decide
  rw [val_main_v11_apply, val_main_v10_apply, val_main_cst_1_apply]
  unfold val_main_v9
  rw [Host.reduce_eq_fold_single FloatOps.maximumf _ _ reducesTo_S4x4x2048x64x64_S4x4x2048x64_d4 h h_S_, val_main_cst_0_apply]
  unfold rowMax
  have hf : ((val_main_v8 (F := Ideal) x0 x1 ∘ h.lift (ix4 b hd T gq)) : Fin 64 → EReal)
      = score (sliceAt x0 b T) (sliceAt x1 b T) hd gq := funext fun (k : Fin 64) => by
    show val_main_v8 (F := Ideal) x0 x1 (h.lift (ix4 b hd T gq) k) = _
    rw [lift_last h b hd T gq k, v8_at]
  exact congrArg (fun f : Fin 64 → EReal => max negInf (Finset.fold max negInf f (Finset.univ : Finset (Fin 64)))) hf

/-- The row maximum spread back over the key groups. -/
theorem v13_at (x0 x1 : FVec Ideal S4x64x64x2048 .f32) (b : Fin 4) (hd : Fin 4) (T : Fin 2048) (gq gk : Fin 64) :
    val_main_v13 (F := Ideal) x0 x1 (ix5 b hd T gq gk) = rowMax (score (sliceAt x0 b T) (sliceAt x1 b T) hd gq) := by
  rw [val_main_v13_apply, val_main_v12_apply]
  have e : idx_main_v12 (idx_main_v13 (ix5 b hd T gq gk)) = ix4 b hd T gq := funext fun a => by
    match a with
    | ⟨0, _⟩ => rfl
    | ⟨1, _⟩ => rfl
    | ⟨2, _⟩ => rfl
    | ⟨3, _⟩ => rfl
  rw [e, v11_at]

/-- The exponentials of the scores less their row maximum. -/
theorem v15_at (x0 x1 : FVec Ideal S4x64x64x2048 .f32) (b : Fin 4) (hd : Fin 4) (T : Fin 2048) (gq gk : Fin 64) :
    val_main_v15 (F := Ideal) x0 x1 (ix5 b hd T gq gk)
      = Ideal.exp (score (sliceAt x0 b T) (sliceAt x1 b T) hd gq gk - rowMax (score (sliceAt x0 b T) (sliceAt x1 b T) hd gq)) := by
  rw [val_main_v15_apply, val_main_v14_apply, v8_at, v13_at]
  rfl

/-- The row sums of the exponentials: a sum from zero. -/
theorem v16_at (x0 x1 : FVec Ideal S4x64x64x2048 .f32) (b : Fin 4) (hd : Fin 4) (T : Fin 2048) (gq : Fin 64) :
    val_main_v16 (F := Ideal) x0 x1 (ix4 b hd T gq)
      = ∑ gk : Fin 64, Ideal.exp (score (sliceAt x0 b T) (sliceAt x1 b T) hd gq gk - rowMax (score (sliceAt x0 b T) (sliceAt x1 b T) hd gq)) := by
  rw [val_main_v16_apply, val_main_cst_2_apply]
  refine (congrArg (· + _) zero32_eq).trans ((zero_add _).trans (Finset.sum_congr rfl fun k _ => ?_))
  have e : idx_main_v16 (ix4 b hd T gq) k = ix5 b hd T gq k := funext fun a => by
    match a with
    | ⟨0, _⟩ => rfl
    | ⟨1, _⟩ => rfl
    | ⟨2, _⟩ => rfl
    | ⟨3, _⟩ => rfl
    | ⟨4, _⟩ => rfl
  rw [e, v15_at]

/-- The attention weights, (batch, head, time, query group, key group). -/
theorem v19_at (x0 x1 : FVec Ideal S4x64x64x2048 .f32) (b : Fin 4) (hd : Fin 4) (T : Fin 2048) (gq gk : Fin 64) :
    val_main_v19 (F := Ideal) x0 x1 (ix5 b hd T gq gk) = attn (sliceAt x0 b T) (sliceAt x1 b T) hd gq gk := by
  rw [val_main_v19_apply, val_main_v18_apply, val_main_v17_apply]
  have e : idx_main_v17 (idx_main_v18 (ix5 b hd T gq gk)) = ix4 b hd T gq := funext fun a => by
    match a with
    | ⟨0, _⟩ => rfl
    | ⟨1, _⟩ => rfl
    | ⟨2, _⟩ => rfl
    | ⟨3, _⟩ => rfl
  rw [e, v15_at, v16_at]
  rfl

/-! ## The two results before their final layout -/

/-- The attended values, (batch, head, time, query group, channel of the head). -/
theorem v20_at (x0 x1 x2 : FVec Ideal S4x64x64x2048 .f32) (b : Fin 4) (hd : Fin 4) (T : Fin 2048) (gq : Fin 64) (d : Fin 16) :
    val_main_v20 (F := Ideal) x0 x1 x2 (ix5 b hd T gq d)
      = xout (sliceAt x0 b T) (sliceAt x1 b T) (sliceAt x2 b T) hd gq d := by
  rw [val_main_v20_apply]
  unfold xout
  refine Finset.sum_congr rfl fun k _ => ?_
  have el : lidx_main_v20 (ix5 b hd T gq d) k = ix5 b hd T gq k := funext fun a => by
    match a with
    | ⟨0, _⟩ => rfl
    | ⟨1, _⟩ => rfl
    | ⟨2, _⟩ => rfl
    | ⟨3, _⟩ => rfl
    | ⟨4, _⟩ => rfl
  have er : ridx_main_v20 (ix5 b hd T gq d) k = ix5 b hd T k d := funext fun a => by
    match a with
    | ⟨0, _⟩ => rfl
    | ⟨1, _⟩ => rfl
    | ⟨2, _⟩ => rfl
    | ⟨3, _⟩ => rfl
    | ⟨4, _⟩ => rfl
  rw [el, er, v19_at, v5_at]

/-- The mean of the four heads' attention weights, (batch, query group, key group, time). -/
theorem v24_at (x0 x1 : FVec Ideal S4x64x64x2048 .f32) (b : Fin 4) (gq gk : Fin 64) (T : Fin 2048) :
    val_main_v24 (F := Ideal) x0 x1 (ix4 b gq gk T) = amean (sliceAt x0 b T) (sliceAt x1 b T) gq gk := by
  rw [val_main_v24_apply, val_main_v23_apply, val_main_cst_4_apply, val_main_v22_apply, val_main_cst_3_apply]
  have hs : ∀ k : Fin 4, val_main_v21 (F := Ideal) x0 x1 (idx_main_v22 (ix4 b gq gk T) k)
      = attn (sliceAt x0 b T) (sliceAt x1 b T) k gq gk := fun k => by
    rw [val_main_v21_apply]
    have e : idx_main_v21 (idx_main_v22 (ix4 b gq gk T) k) = ix5 b k T gq gk := funext fun a => by
      match a with
      | ⟨0, _⟩ => rfl
      | ⟨1, _⟩ => rfl
      | ⟨2, _⟩ => rfl
      | ⟨3, _⟩ => rfl
      | ⟨4, _⟩ => rfl
    rw [e, v19_at]
  rw [Finset.sum_congr rfl fun k _ => hs k]
  exact mean_div_eq_mul fun k => attn (sliceAt x0 b T) (sliceAt x1 b T) k gq gk

/-! ## The results as returned -/

/-- The reference's first result is the specification's x. -/
theorem x_eq (x0 x1 x2 : FVec Ideal S4x64x64x2048 .f32) : val_main_v26 (F := Ideal) x0 x1 x2 = Gx x0 x1 x2 := by
  funext i
  obtain ⟨b, m, T, rfl⟩ : ∃ (b : Fin 4) (m : Fin 4096) (T : Fin 2048), i = ix3 b m T := ⟨i 0, i 1, i 2, eq_ix3 i⟩
  rw [val_main_v26_apply, val_main_v25_apply]
  have hb : b.val < 4 := b.isLt
  have hm : m.val < 4096 := m.isLt
  have hT : T.val < 2048 := T.isLt
  -- row-major position ((b·4096 + m)·2048 + T) read back as (b, group m/64, head (m%64)/16, channel (m%64)%16, T)
  have e : idx_main_v25 (idx_main_v26 (ix3 b m T))
      = ix5 b (headOf ⟨m.val % 64, by omega⟩) T (⟨m.val / 64, by omega⟩ : Fin 64) (inHead ⟨m.val % 64, by omega⟩) :=
    funext fun a => Fin.ext (by
      match a with
      | ⟨0, _⟩ => show ((b.val * 4096 + m.val) * 2048 + T.val) / 8388608 = b.val; omega
      | ⟨1, _⟩ => show ((b.val * 4096 + m.val) * 2048 + T.val) / 32768 % 4 = m.val % 64 / 16; omega
      | ⟨2, _⟩ => show ((b.val * 4096 + m.val) * 2048 + T.val) % 2048 = T.val; omega
      | ⟨3, _⟩ => show ((b.val * 4096 + m.val) * 2048 + T.val) / 131072 % 64 = m.val / 64; omega
      | ⟨4, _⟩ => show ((b.val * 4096 + m.val) * 2048 + T.val) / 2048 % 16 = m.val % 64 % 16; omega)
  rw [e, v20_at]
  rfl

/-- The reference's second result is the specification's mean attention. -/
theorem a_eq (x0 x1 : FVec Ideal S4x64x64x2048 .f32) : val_main_v27 (F := Ideal) x0 x1 = Ga x0 x1 := by
  funext i
  obtain ⟨b, o, gq, gk, T, rfl⟩ : ∃ (b : Fin 4) (o : Fin 1) (gq gk : Fin 64) (T : Fin 2048), i = ix5 b o gq gk T :=
    ⟨i 0, i 1, i 2, i 3, i 4, eq_ix5 i⟩
  rw [val_main_v27_apply]
  have hb : b.val < 4 := b.isLt
  have ho : o.val < 1 := o.isLt
  have hq : gq.val < 64 := gq.isLt
  have hk : gk.val < 64 := gk.isLt
  have hT : T.val < 2048 := T.isLt
  -- the size-one axis contributes nothing to the row-major position
  have e : idx_main_v27 (ix5 b o gq gk T) = ix4 b gq gk T := funext fun a => Fin.ext (by
    match a with
    | ⟨0, _⟩ => show ((((b.val * 1 + o.val) * 64 + gq.val) * 64 + gk.val) * 2048 + T.val) / 8388608 = b.val; omega
    | ⟨1, _⟩ => show ((((b.val * 1 + o.val) * 64 + gq.val) * 64 + gk.val) * 2048 + T.val) / 131072 % 64 = gq.val; omega
    | ⟨2, _⟩ => show ((((b.val * 1 + o.val) * 64 + gq.val) * 64 + gk.val) * 2048 + T.val) / 2048 % 64 = gk.val; omega
    | ⟨3, _⟩ => show ((((b.val * 1 + o.val) * 64 + gq.val) * 64 + gk.val) * 2048 + T.val) % 2048 = T.val; omega)
  rw [e, v24_at]
  rfl

end Cert.Attn.RefValue

end
-- ==== Proof.lean ====
/-
  The certificate: an attention over the groups axis — four heads of sixteen channels, a softmax per query group,
  the heads' weights averaged — computed by one pipelined kernel over (batch, time tile) and by a plain jnp program.

  At the ideal values both programs end with the same two functions of the three argument arrays (Proof/Spec.lean):
  the kernel by its body's blocks over the grid and the two reshapes after the region (Proof/KernelBody.lean,
  Proof/KernelValue.lean), the reference by its operations read one at a time (Proof/RefValue.lean).  The bf16
  casts around the kernel's matrix products are the identity at the ideal values; the kernel scales the heads' sum by
  ¼ where the reference divides it by 4, the same extended real.  The three frames are the generated ones (the
  reference's: its generated run with the results dropped); nothing was idealized, so `preserves` is `True`.
-/
import proofs.«128201_j31353261260858_1_alg».proof.Defs
import proofs.«128201_j31353261260858_1_alg».proof.Proof.Gen.Kernel
import proofs.«128201_j31353261260858_1_alg».proof.Proof.Gen.Kernel.Frame
import proofs.«128201_j31353261260858_1_alg».proof.Proof.Gen.KernelIdeal
import proofs.«128201_j31353261260858_1_alg».proof.Proof.Gen.KernelIdeal.Frame
import proofs.«128201_j31353261260858_1_alg».proof.Proof.Gen.ReferenceIdeal
import proofs.«128201_j31353261260858_1_alg».proof.Proof.Gen.ReferenceIdeal.Run
import proofs.«128201_j31353261260858_1_alg».proof.Proof.Gen.ReferenceIdeal.Read
import proofs.«128201_j31353261260858_1_alg».proof.Proof.Gen.Pre_finite_inputs
import proofs.«128201_j31353261260858_1_alg».proof.Proof.Spec
import proofs.«128201_j31353261260858_1_alg».proof.Proof.KernelValue
import proofs.«128201_j31353261260858_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both runs end at the specification's two functions of arguments that agree. -/
theorem algebraic : Cert.algebraic_KernelIdeal_ReferenceIdeal := by
  intro m ρ m' ρ' _ hagree
  refine ⟨_, _, Cert.Attn.KernelValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v26_eq, Cert.Attn.RefValue.x_eq, (hagree c).1, (hagree c).2.1, (hagree c).2.2]
  · rw [Cert.ReferenceIdeal.Read.val_main_v27_eq, Cert.Attn.RefValue.a_eq, (hagree c).1, (hagree c).2.1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
